-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096 : Shape := ⟨1, ![4096]⟩
abbrev S4096x16384 : Shape := ⟨2, ![4096, 16384]⟩
abbrev S16384 : Shape := ⟨1, ![16384]⟩
abbrev S16384x4096 : Shape := ⟨2, ![16384, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096 : S_.BroadcastsInDim S4096 (![] : Fin 0 → Fin S4096.rank)
  reducesTo_S4096_S_d0 : S4096.ReducesTo [0] S_
  bcast_S_S4096x16384 : S_.BroadcastsInDim S4096x16384 (![] : Fin 0 → Fin S4096x16384.rank)
  reducesTo_S4096x16384_S_d0_1 : S4096x16384.ReducesTo [0, 1] S_
  bcast_S_S16384 : S_.BroadcastsInDim S16384 (![] : Fin 0 → Fin S16384.rank)
  reducesTo_S16384_S_d0 : S16384.ReducesTo [0] S_
  bcast_S_S16384x4096 : S_.BroadcastsInDim S16384x4096 (![] : Fin 0 → Fin S16384x4096.rank)
  reducesTo_S16384x4096_S_d0_1 : S16384x4096.ReducesTo [0, 1] S_

variable [Facts]

def fn_part2 {F : FTy → Type} [FloatOps F] (main_arg7 : FVec F S16384 .f32) (main_arg8 : FVec F S16384x4096 .f32) (main_arg9 : FVec F S4096 .f32) (main_v33 : IVec S_ 1) : IVec S_ 1 :=
  let main_v34 : FVec F S16384 .f32 := Host.absf main_arg7
  let main_cst_12 : FVec F S_ .f32 := constant S_ .f32 0x7F800000#32
  let main_v35 : FVec F S16384 .f32 := broadcastInDim S16384 ![] bcast_S_S16384 main_cst_12
  let main_v36 : IVec S16384 1 := cmpf .olt main_v34 main_v35
  let main_c_13 : IVec S_ 1 := constantI S_ 1 1#1
  let main_v37 : IVec S_ 1 := (fun x v => Host.reduce IntOp.andi x v reducesTo_S16384_S_d0 h_S_) main_v36 main_c_13
  let main_v38 : IVec S_ 1 := andi main_v33 main_v37
  let main_v39 : FVec F S16384x4096 .f32 := Host.absf main_arg8
  let main_cst_14 : FVec F S_ .f32 := constant S_ .f32 0x7F800000#32
  let main_v40 : FVec F S16384x4096 .f32 := broadcastInDim S16384x4096 ![] bcast_S_S16384x4096 main_cst_14
  let main_v41 : IVec S16384x4096 1 := cmpf .olt main_v39 main_v40
  let main_c_15 : IVec S_ 1 := constantI S_ 1 1#1
  let main_v42 : IVec S_ 1 := (fun x v => Host.reduce IntOp.andi x v reducesTo_S16384x4096_S_d0_1 h_S_) main_v41 main_c_15
  let main_v43 : IVec S_ 1 := andi main_v38 main_v42
  let main_v44 : FVec F S4096 .f32 := Host.absf main_arg9
  let main_cst_16 : FVec F S_ .f32 := constant S_ .f32 0x7F800000#32
  let main_v45 : FVec F S4096 .f32 := broadcastInDim S4096 ![] bcast_S_S4096 main_cst_16
  let main_v46 : IVec S4096 1 := cmpf .olt main_v44 main_v45
  let main_c_17 : IVec S_ 1 := constantI S_ 1 1#1
  let main_v47 : IVec S_ 1 := (fun x v => Host.reduce IntOp.andi x v reducesTo_S4096_S_d0 h_S_) main_v46 main_c_17
  let main_v48 : IVec S_ 1 := andi main_v43 main_v47
  main_v48

def fn_part1 {F : FTy → Type} [FloatOps F] (main_arg4 : FVec F S4096 .f32) (main_arg5 : FVec F S4096 .f32) (main_arg6 : FVec F S4096x16384 .f32) (main_arg7 : FVec F S16384 .f32) (main_arg8 : FVec F S16384x4096 .f32) (main_arg9 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096x16384 .f32 := Host.absf main_arg6
  let main_cst_10 : FVec F S_ .f32 := constant S_ .f32 0x7F800000#32
  let main_v30 : FVec F S4096x16384 .f32 := broadcastInDim S4096x16384 ![] bcast_S_S4096x16384 main_cst_10
  let main_v31 : IVec S4096x16384 1 := cmpf .olt main_v29 main_v30
  let main_c_11 : IVec S_ 1 := constantI S_ 1 1#1
  let main_v32 : IVec S_ 1 := (fun x v => Host.reduce IntOp.andi x v reducesTo_S4096x16384_S_d0_1 h_S_) main_v31 main_c_11
  let main_v33 : IVec S_ 1 := andi main_v28 main_v32
  fn_part2 (F := F) main_arg7 main_arg8 main_arg9 main_v33

def fn {F : FTy → Type} [FloatOps F] (main_arg0 : FVec F S4x2048x4096 .f32) (main_arg1 : FVec F S4x2048x4096 .f32) (main_arg2 : FVec F S4x2048x4096 .f32) (main_arg3 : FVec F S4096 .f32) (main_arg4 : FVec F S4096 .f32) (main_arg5 : FVec F S4096 .f32) (main_arg6 : FVec F S4096x16384 .f32) (main_arg7 : FVec F S16384 .f32) (main_arg8 : FVec F S16384x4096 .f32) (main_arg9 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4x2048x4096 .f32 := Host.absf main_arg1
  let main_cst_0 : FVec F S_ .f32 := constant S_ .f32 0x7F800000#32
  let main_v5 : FVec F S4x2048x4096 .f32 := broadcastInDim S4x2048x4096 ![] bcast_S_S4x2048x4096 main_cst_0
  let main_v6 : IVec S4x2048x4096 1 := cmpf .olt main_v4 main_v5
  let main_c_1 : IVec S_ 1 := constantI S_ 1 1#1
  let main_v7 : IVec S_ 1 := (fun x v => Host.reduce IntOp.andi x v reducesTo_S4x2048x4096_S_d0_1_2 h_S_) main_v6 main_c_1
  let main_v8 : IVec S_ 1 := andi main_v3 main_v7
  let main_v9 : FVec F S4x2048x4096 .f32 := Host.absf main_arg2
  let main_cst_2 : FVec F S_ .f32 := constant S_ .f32 0x7F800000#32
  let main_v10 : FVec F S4x2048x4096 .f32 := broadcastInDim S4x2048x4096 ![] bcast_S_S4x2048x4096 main_cst_2
  let main_v11 : IVec S4x2048x4096 1 := cmpf .olt main_v9 main_v10
  let main_c_3 : IVec S_ 1 := constantI S_ 1 1#1
  let main_v12 : IVec S_ 1 := (fun x v => Host.reduce IntOp.andi x v reducesTo_S4x2048x4096_S_d0_1_2 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_arg8 main_arg9 main_v13 main_v16
-- ==== Kernel.lean ====
abbrev S4x2048x4096 : Shape := ⟨3, ![4, 2048, 4096]⟩
abbrev S4096 : Shape := ⟨1, ![4096]⟩
abbrev S4096x16384 : Shape := ⟨2, ![4096, 16384]⟩
abbrev S16384 : Shape := ⟨1, ![16384]⟩
abbrev S16384x4096 : Shape := ⟨2, ![16384, 4096]⟩
abbrev S1x1x4096 : Shape := ⟨3, ![1, 1, 4096]⟩
abbrev S8192x4096 : Shape := ⟨2, ![8192, 4096]⟩
abbrev S1x4096 : Shape := ⟨2, ![1, 4096]⟩
abbrev S1x16384 : Shape := ⟨2, ![1, 16384]⟩
abbrev S512x4096 : Shape := ⟨2, ![512, 4096]⟩
abbrev S4096x512 : Shape := ⟨2, ![4096, 512]⟩
abbrev S1x512 : Shape := ⟨2, ![1, 512]⟩
abbrev S512 : Shape := ⟨1, ![512]⟩
abbrev S512x1 : Shape := ⟨2, ![512, 1]⟩
abbrev S512x512 : Shape := ⟨2, ![512, 512]⟩

abbrev nBuf : Space → Nat
  | .hbm => 23
  | .vmem => 13
  | .smem => 0
  | _ => 0

abbrev bufTy : (tb : Table) → Fin (tcTables nBuf tb) → BufTy
  | .hbm, ⟨0, _⟩ => ⟨S4x2048x4096, .f32⟩
  | .hbm, ⟨1, _⟩ => ⟨S4x2048x4096, .f32⟩
  | .hbm, ⟨2, _⟩ => ⟨S4x2048x4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S4096x16384, .f32⟩
  | .hbm, ⟨7, _⟩ => ⟨S16384, .f32⟩
  | .hbm, ⟨8, _⟩ => ⟨S16384x4096, .f32⟩
  | .hbm, ⟨9, _⟩ => ⟨S4096, .f32⟩
  | .hbm, ⟨10, _⟩ => ⟨S4x2048x4096, .f32⟩
  | .hbm, ⟨11, _⟩ => ⟨S1x1x4096, .f32⟩
  | .hbm, ⟨12, _⟩ => ⟨S4x2048x4096, .f32⟩
  | .hbm, ⟨13, _⟩ => ⟨S4x2048x4096, .f32⟩
  | .hbm, ⟨14, _⟩ => ⟨S8192x4096, .f32⟩
  | .hbm, ⟨15, _⟩ => ⟨S1x4096, .f32⟩
  | .hbm, ⟨16, _⟩ => ⟨S1x4096, .f32⟩
  | .hbm, ⟨17, _⟩ => ⟨S1x16384, .f32⟩
  | .hbm, ⟨18, _⟩ => ⟨S1x4096, .f32⟩
  | .hbm, ⟨19, _⟩ => ⟨S4096x16384, .bf16⟩
  | .hbm, ⟨20, _⟩ => ⟨S16384x4096, .bf16⟩
  | .hbm, ⟨21, _⟩ => ⟨S8192x4096, .f32⟩
  | .hbm, ⟨22, _⟩ => ⟨S4x2048x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x4096, .f32⟩
  | .local _ .vmem, ⟨4, _⟩ => ⟨S4096x512, .bf16⟩
  | .local _ .vmem, ⟨5, _⟩ => ⟨S4096x512, .bf16⟩
  | .local _ .vmem, ⟨6, _⟩ => ⟨S1x512, .f32⟩
  | .local _ .vmem, ⟨7, _⟩ => ⟨S1x512, .f32⟩
  | .local _ .vmem, ⟨8, _⟩ => ⟨S512x4096, .bf16⟩
  | .local _ .vmem, ⟨9, _⟩ => ⟨S512x4096, .bf16⟩
  | .local _ .vmem, ⟨10, _⟩ => ⟨S1x4096, .f32⟩
  | .local _ .vmem, ⟨11, _⟩ => ⟨S512x4096, .f32⟩
  | .local _ .vmem, ⟨12, _⟩ => ⟨S512x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  shapeCasts_S4x2048x4096_S8192x4096 : S4x2048x4096.ShapeCasts S8192x4096
  shapeCasts_S4096_S1x4096 : S4096.ShapeCasts S1x4096
  shapeCasts_S16384_S1x16384 : S16384.ShapeCasts S1x16384
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  reduces_S512x4096_S512 : S512x4096.Reduces [1] S512
  shapeCasts_S512_S512x1 : S512.ShapeCasts S512x1
  broadcasts_S512x1_S512x4096 : S512x1.Broadcasts S512x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  shapeCasts_S8192x4096_S4x2048x4096 : S8192x4096.ShapeCasts S4x2048x4096
  dot_S512x4096_S4096x512_S512x512_1_0_0_1_n_n_wf : DotDims.WF S512x4096 S4096x512 S512x512 [1] [0] [0] [1] [] []
  dot_S512x512_S512x4096_S512x4096_1_0_0_1_n_n_wf : DotDims.WF S512x512 S512x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x512.size a ≤ S4096x16384.size a
  hwx0_3 : ∀ i : grid0.Coords, EltTy.bits .bf16 = 32 ∨ (Rect.block (s := S4096x16384) S4096x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x16384.size a
  hwx0_4 : ∀ i : grid0.Coords, EltTy.bits .f32 = 32 ∨ (Rect.block (s := S1x16384) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x4096.size a ≤ S16384x4096.size a
  hwx0_5 : ∀ i : grid0.Coords, EltTy.bits .bf16 = 32 ∨ (Rect.block (s := S16384x4096) S512x4096.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4096.size a ≤ S1x4096.size a
  hwx0_6 : ∀ i : grid0.Coords, EltTy.bits .f32 = 32 ∨ (Rect.block (s := S1x4096) S1x4096.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x4096.size a ≤ S8192x4096.size a
  hwx0_7 : ∀ i : grid0.Coords, EltTy.bits .f32 = 32 ∨ (Rect.block (s := S8192x4096) S512x4096.size (cc0_transform_7 i) (hinb0_7 i)).WholeWords (EltTy.packing .f32)

variable [Facts₀]

def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf
def dot_S512x512_S512x4096_S512x4096_1_0_0_1_n_n : DotDims S512x512 S512x4096 S512x4096 where
  lhsContracting := [1]
  rhsContracting := [0]
  lhsNonContracting := [0]
  rhsNonContracting := [1]
  lhsBatch := []
  rhsBatch := []
  wf := dot_S512x512_S512x4096_S512x4096_1_0_0_1_n_n_wf

abbrev win0_0 : Pipeline.Window sig grid0 :=
  Pipeline.Window.ofSpec (Memref.whole main_v4) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S4096x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10) S512x4096.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S512x4096.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096 : Shape := ⟨1, ![4096]⟩
abbrev S4096x16384 : Shape := ⟨2, ![4096, 16384]⟩
abbrev S16384 : Shape := ⟨1, ![16384]⟩
abbrev S16384x4096 : Shape := ⟨2, ![16384, 4096]⟩
abbrev S1x1x4096 : Shape := ⟨3, ![1, 1, 4096]⟩
abbrev S_ : Shape := ⟨0, ![]⟩
abbrev S4x2048 : Shape := ⟨2, ![4, 2048]⟩
abbrev S4x2048x1 : Shape := ⟨3, ![4, 2048, 1]⟩
abbrev S4x2048x16384 : Shape := ⟨3, ![4, 2048, 16384]⟩
abbrev S1x1x16384 : Shape := ⟨3, ![1, 1, 16384]⟩

abbrev nBuf : Space → Nat
  | .hbm => 69
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4x2048x4096, .f32⟩
  | .hbm, ⟨2, _⟩ => ⟨S4x2048x4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S4096x16384, .f32⟩
  | .hbm, ⟨7, _⟩ => ⟨S16384, .f32⟩
  | .hbm, ⟨8, _⟩ => ⟨S16384x4096, .f32⟩
  | .hbm, ⟨9, _⟩ => ⟨S4096, .f32⟩
  | .hbm, ⟨10, _⟩ => ⟨S4x2048x4096, .f32⟩
  | .hbm, ⟨11, _⟩ => ⟨S1x1x4096, .f32⟩
  | .hbm, ⟨12, _⟩ => ⟨S4x2048x4096, .f32⟩
  | .hbm, ⟨13, _⟩ => ⟨S4x2048x4096, .f32⟩
  | .hbm, ⟨14, _⟩ => ⟨S_, .f32⟩
  | .hbm, ⟨15, _⟩ => ⟨S4x2048, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S4x2048x4096, .f32⟩
  | .hbm, ⟨21, _⟩ => ⟨S4x2048x4096, .f32⟩
  | .hbm, ⟨22, _⟩ => ⟨S4x2048x4096, .f32⟩
  | .hbm, ⟨23, _⟩ => ⟨S_, .f32⟩
  | .hbm, ⟨24, _⟩ => ⟨S4x2048, .f32⟩
  | .hbm, ⟨25, _⟩ => ⟨S4x2048x1, .f32⟩
  | .hbm, ⟨26, _⟩ => ⟨S_, .f32⟩
  | .hbm, ⟨27, _⟩ => ⟨S4x2048x1, .f32⟩
  | .hbm, ⟨28, _⟩ => ⟨S4x2048x1, .f32⟩
  | .hbm, ⟨29, _⟩ => ⟨S4x2048x4096, .f32⟩
  | .hbm, ⟨30, _⟩ => ⟨S4x2048x4096, .f32⟩
  | .hbm, ⟨31, _⟩ => ⟨S_, .f32⟩
  | .hbm, ⟨32, _⟩ => ⟨S4x2048x1, .f32⟩
  | .hbm, ⟨33, _⟩ => ⟨S4x2048x1, .f32⟩
  | .hbm, ⟨34, _⟩ => ⟨S4x2048x1, .f32⟩
  | .hbm, ⟨35, _⟩ => ⟨S4x2048x4096, .f32⟩
  | .hbm, ⟨36, _⟩ => ⟨S4x2048x4096, .f32⟩
  | .hbm, ⟨37, _⟩ => ⟨S1x1x4096, .f32⟩
  | .hbm, ⟨38, _⟩ => ⟨S4x2048x4096, .f32⟩
  | .hbm, ⟨39, _⟩ => ⟨S4x2048x4096, .f32⟩
  | .hbm, ⟨40, _⟩ => ⟨S1x1x4096, .f32⟩
  | .hbm, ⟨41, _⟩ => ⟨S4x2048x4096, .f32⟩
  | .hbm, ⟨42, _⟩ => ⟨S4x2048x4096, .f32⟩
  | .hbm, ⟨43, _⟩ => ⟨S4x2048x16384, .f32⟩
  | .hbm, ⟨44, _⟩ => ⟨S1x1x16384, .f32⟩
  | .hbm, ⟨45, _⟩ => ⟨S4x2048x16384, .f32⟩
  | .hbm, ⟨46, _⟩ => ⟨S4x2048x16384, .f32⟩
  | .hbm, ⟨47, _⟩ => ⟨S4x2048x16384, .f32⟩
  | .hbm, ⟨48, _⟩ => ⟨S4x2048x16384, .f32⟩
  | .hbm, ⟨49, _⟩ => ⟨S_, .f32⟩
  | .hbm, ⟨50, _⟩ => ⟨S4x2048x16384, .f32⟩
  | .hbm, ⟨51, _⟩ => ⟨S4x2048x16384, .f32⟩
  | .hbm, ⟨52, _⟩ => ⟨S4x2048x16384, .f32⟩
  | .hbm, ⟨53, _⟩ => ⟨S_, .f32⟩
  | .hbm, ⟨54, _⟩ => ⟨S4x2048x16384, .f32⟩
  | .hbm, ⟨55, _⟩ => ⟨S4x2048x16384, .f32⟩
  | .hbm, ⟨56, _⟩ => ⟨S4x2048x16384, .f32⟩
  | .hbm, ⟨57, _⟩ => ⟨S_, .f32⟩
  | .hbm, ⟨58, _⟩ => ⟨S4x2048x16384, .f32⟩
  | .hbm, ⟨59, _⟩ => ⟨S4x2048x16384, .f32⟩
  | .hbm, ⟨60, _⟩ => ⟨S_, .f32⟩
  | .hbm, ⟨61, _⟩ => ⟨S4x2048x16384, .f32⟩
  | .hbm, ⟨62, _⟩ => ⟨S4x2048x16384, .f32⟩
  | .hbm, ⟨63, _⟩ => ⟨S4x2048x16384, .f32⟩
  | .hbm, ⟨64, _⟩ => ⟨S4x2048x4096, .f32⟩
  | .hbm, ⟨65, _⟩ => ⟨S4x2048x4096, .f32⟩
  | .hbm, ⟨66, _⟩ => ⟨S1x1x4096, .f32⟩
  | .hbm, ⟨67, _⟩ => ⟨S4x2048x4096, .f32⟩
  | .hbm, ⟨68, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  reducesTo_S4x2048x4096_S4x2048_d2 : S4x2048x4096.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x4096_0_1_2 : S4x2048x1.BroadcastsInDim S4x2048x4096 (![0, 1, 2] : Fin 3 → Fin S4x2048x4096.rank)
  bcast_S16384_S1x1x16384_2 : S16384.BroadcastsInDim S1x1x16384 (![2] : Fin 1 → Fin S1x1x16384.rank)
  bcast_S1x1x16384_S4x2048x16384_0_1_2 : S1x1x16384.BroadcastsInDim S4x2048x16384 (![0, 1, 2] : Fin 3 → Fin S4x2048x16384.rank)
  bcast_S_S4x2048x16384 : S_.BroadcastsInDim S4x2048x16384 (![] : Fin 0 → Fin S4x2048x16384.rank)
  dot_S4x2048x4096_S4096x16384_S4x2048x16384_2_0_01_1_n_n_wf : DotDims.WF S4x2048x4096 S4096x16384 S4x2048x16384 [2] [0] [0, 1] [1] [] []
  dot_S4x2048x16384_S16384x4096_S4x2048x4096_2_0_01_1_n_n_wf : DotDims.WF S4x2048x16384 S16384x4096 S4x2048x4096 [2] [0] [0, 1] [1] [] []

variable [Facts₀]

def dot_S4x2048x4096_S4096x16384_S4x2048x16384_2_0_01_1_n_n : DotDims S4x2048x4096 S4096x16384 S4x2048x16384 where
  lhsContracting := [2]
  rhsContracting := [0]
  lhsNonContracting := [0, 1]
  rhsNonContracting := [1]
  lhsBatch := []
  rhsBatch := []
  wf := dot_S4x2048x4096_S4096x16384_S4x2048x16384_2_0_01_1_n_n_wf
def dot_S4x2048x16384_S16384x4096_S4x2048x4096_2_0_01_1_n_n : DotDims S4x2048x16384 S16384x4096 S4x2048x4096 where
  lhsContracting := [2]
  rhsContracting := [0]
  lhsNonContracting := [0, 1]
  rhsNonContracting := [1]
  lhsBatch := []
  rhsBatch := []
  wf := dot_S4x2048x16384_S16384x4096_S4x2048x4096_2_0_01_1_n_n_wf

class Facts : Prop extends Facts₀ where

variable [Facts]
-- ==== Proof.RowSpec.lean ====
/-
  One row of the layer, over the extended reals.

  The layer acts on each of the 8192 rows of its input separately. For a row `x` of 4096 entries, a gain `nw`, a shift
  `nb`, a first weight matrix `W1` (4096 x 16384) with bias `b1`, a second weight matrix `W2` (16384 x 4096) and an
  output bias `ob`:

    mean x   = (sum_h x h) / 4096
    var x    = (sum_h (x h - mean x)^2) / 4096
    norm h   = (x h - mean x) * rsqrt (var x + eps) * nw h + nb h
    pre k    = (sum_h norm h * W1 h k) + b1 k
    gelu u   = u * (1/2 * (1 + tanh (c * (u + a * (u * (u * u))))))
    out q    = ((sum_k gelu (pre k) * W2 k q) + x q) + ob q

  with the float words of 4096, eps, a, c, 1 and 1/2 kept as the words they are (the same words on both sides of the
  comparison, so never evaluated). The hidden index k runs over 16384 columns; taken in 32 consecutive blocks of 512 the
  sum over k is the sum over the blocks of the sums inside each block, and a total that starts from zero and adds one
  block's sum at a time reaches it after the last block. Only commutativity and associativity of addition are used, so
  infinite entries need no separate treatment.
-/
import Idealize.ShloMosaic.PureOps.Ideal.Laws
import Mathlib.Algebra.BigOperators.Fin
import Mathlib.Logic.Equiv.Fin.Basic

noncomputable section

open scoped BigOperators

namespace Cert.Hand.Row

open Idealize.ShloMosaic

/-! ## The float words of the layer -/

/-- The row length, 4096. -/
abbrev wWidth : EReal := Ideal.ofBits .f32 0x45800000#32
/-- The variance offset, the float nearest 1e-5. -/
abbrev wEps : EReal := Ideal.ofBits .f32 0x3727C5AC#32
/-- The cubic coefficient of the tanh form of GELU, the float nearest 0.044715. -/
abbrev wCube : EReal := Ideal.ofBits .f32 0x3D372713#32
/-- The scale inside the tanh, the float nearest sqrt (2 / pi). -/
abbrev wScale : EReal := Ideal.ofBits .f32 0x3F4C422A#32
abbrev wOne : EReal := Ideal.ofBits .f32 0x3F800000#32
abbrev wHalf : EReal := Ideal.ofBits .f32 0x3F000000#32

/-! ## One row -/

section OneRow
variable (x nw nb : Fin 4096 → EReal)

/-- The mean of the row. -/
def mean : EReal := Ideal.div (∑ h, x h) wWidth

/-- The mean squared deviation of the row. -/
def var : EReal := Ideal.div (∑ h, (x h - mean x) * (x h - mean x)) wWidth

/-- The normalised row with gain and shift. -/
def norm (h : Fin 4096) : EReal := (x h - mean x) * Ideal.rsqrt (var x + wEps) * nw h + nb h

/-- One hidden pre-activation: the normalised row against one column `w` of the first weight matrix, plus that
    column's bias `b`. -/
def pre (w : Fin 4096 → EReal) (b : EReal) : EReal := (∑ h, norm x nw nb h * w h) + b

/-- The tanh form of GELU. -/
def gelu (u : EReal) : EReal := u * (wHalf * (wOne + Ideal.tanh (wScale * (u + wCube * (u * (u * u))))))

/-- One hidden activation. -/
def act (w : Fin 4096 → EReal) (b : EReal) : EReal := gelu (pre x nw nb w b)

variable (W1 : Fin 4096 → Fin 16384 → EReal) (b1 : Fin 16384 → EReal) (W2 : Fin 16384 → Fin 4096 → EReal)

/-- The second product at output column `q`: the sum over all 16384 hidden columns. -/
def proj (q : Fin 4096) : EReal := ∑ k : Fin 16384, act x nw nb (fun h => W1 h k) (b1 k) * W2 k q

/-- The row of the result: the second product, plus the row itself, plus the output bias. -/
def out (ob : Fin 4096 → EReal) (q : Fin 4096) : EReal := (proj x nw nb W1 b1 W2 q + x q) + ob q

/-! ## The hidden columns in 32 blocks of 512 -/

/-- Hidden column `kk` of block `j`. The remainder makes this a column for every natural `j`; for the 32 blocks
    there are it is `512 j + kk`. -/
def col (j : ℕ) (kk : Fin 512) : Fin 16384 := ⟨(512 * j + kk.val) % 16384, Nat.mod_lt _ (by norm_num)⟩

theorem col_val (j : ℕ) (hj : j < 32) (kk : Fin 512) : (col j kk).val = 512 * j + kk.val := by
  have := kk.isLt
  exact Nat.mod_eq_of_lt (by omega)

/-- Block `j`'s share of the second product at output column `q`. -/
def part (q : Fin 4096) (j : ℕ) : EReal :=
  ∑ kk : Fin 512, act x nw nb (fun h => W1 h (col j kk)) (b1 (col j kk)) * W2 (col j kk) q

end OneRow

/-- (block, column in the block) ↦ hidden column: a bijection of 32 x 512 with 16384. -/
def colEquiv : Fin 32 × Fin 512 ≃ Fin 16384 := finProdFinEquiv.trans (finCongr (by norm_num : 32 * 512 = 16384))

theorem colEquiv_apply (j : Fin 32) (kk : Fin 512) : colEquiv (j, kk) = col j.val kk := by
  apply Fin.ext
  rw [col_val j.val j.isLt kk]
  show kk.val + 512 * j.val = 512 * j.val + kk.val
  exact Nat.add_comm _ _

/-- A sum over the hidden columns is the sum over the blocks of the sums inside each block. -/
theorem sum_blocks {M : Type*} [AddCommMonoid M] (f : Fin 16384 → M) :
    ∑ k : Fin 16384, f k = ∑ j ∈ Finset.range 32, ∑ kk : Fin 512, f (col j kk) := by
  rw [Finset.sum_range, ← Equiv.sum_comp colEquiv f, Fintype.sum_prod_type]
  exact Finset.sum_congr rfl fun j _ => Finset.sum_congr rfl fun kk _ => congrArg f (colEquiv_apply j kk)

/-- The second product is the sum of the 32 blocks' shares. -/
theorem proj_eq_parts (x nw nb : Fin 4096 → EReal) (W1 : Fin 4096 → Fin 16384 → EReal) (b1 : Fin 16384 → EReal)
    (W2 : Fin 16384 → Fin 4096 → EReal) (q : Fin 4096) :
    proj x nw nb W1 b1 W2 q = ∑ j ∈ Finset.range 32, part x nw nb W1 b1 W2 q j :=
  sum_blocks fun k => act x nw nb (fun h => W1 h k) (b1 k) * W2 k q

/-- A total that starts from zero at block 0 and adds one block's share at a time holds, after block `t`, the sum of
    the shares of blocks `0 .. t`. -/
theorem running_total {M : Type*} [AddCommMonoid M] (S p : ℕ → M) (h0 : S 0 = 0 + p 0)
    (hs : ∀ t, S (t + 1) = S t + p (t + 1)) (t : ℕ) : S t = ∑ j ∈ Finset.range (t + 1), p j := by
  induction t with
  | zero => rw [h0, zero_add, Finset.sum_range_one]
  | succ t ih => rw [hs t, ih, Finset.sum_range_succ _ (t + 1)]

end Cert.Hand.Row

end
-- ==== Proof.Arrays.lean ====
/-
  The layer over its argument arrays.

  The inputs are two [4, 2048, 4096] arrays (input and residual) and a bias of 4096 entries; their sum is an array of
  8192 = 4 x 2048 rows of 4096 entries, row (b, s) being `x0 (b, s, ·) + x1 (b, s, ·) + bias`. Every row goes through
  the one-row layer of RowSpec.lean with the same gain, shift, weights and biases. Row r of the flat 8192-row view is
  row (r / 2048, r % 2048); the kernel visits the rows in 16 blocks of 512 and the hidden columns in 32 blocks of 512,
  grid point n being row block n / 32 and hidden block n % 32.
-/
import proofs.«166051_j77189152243985_1_alg».proof.Proof.RowSpec
import Idealize.ShloMosaic.Lib.ValueIdx

noncomputable section

namespace Cert.Hand.Arr

open Idealize.ShloMosaic Idealize.ShloMosaic.ValueIdx

/-- Row `p` of a matrix. -/
abbrev rowOf {n k : ℕ} (X : (⟨2, ![n, k]⟩ : Shape).Idx → EReal) (p : Fin n) : Fin k → EReal := fun h => X (ix2 p h)
/-- Column `j` of a matrix. -/
abbrev colOf {n k : ℕ} (X : (⟨2, ![n, k]⟩ : Shape).Idx → EReal) (j : Fin k) : Fin n → EReal := fun h => X (ix2 h j)
/-- The one row of a 1 x k matrix. -/
abbrev row0 {k : ℕ} (X : (⟨2, ![1, k]⟩ : Shape).Idx → EReal) : Fin k → EReal := fun h => X (ix2 (0 : Fin 1) h)
/-- The entries of a vector. -/
abbrev vecOf {k : ℕ} (v : (⟨1, ![k]⟩ : Shape).Idx → EReal) : Fin k → EReal := fun h => v (ix1 h)
/-- The entries of a matrix by row and column. -/
abbrev matOf {n k : ℕ} (X : (⟨2, ![n, k]⟩ : Shape).Idx → EReal) : Fin n → Fin k → EReal := fun a b => X (ix2 a b)

/-- Row (b, s) of input + residual + bias. -/
def resRow (x0 x1 : (⟨3, ![4, 2048, 4096]⟩ : Shape).Idx → EReal) (x3 : (⟨1, ![4096]⟩ : Shape).Idx → EReal)
    (b : Fin 4) (s : Fin 2048) : Fin 4096 → EReal :=
  fun h => x0 (ix3 b s h) + x1 (ix3 b s h) + x3 (ix1 h)

/-- The layer's result, entry (b, s, q): the one-row layer on row (b, s) of input + residual + bias. -/
def layer (x0 x1 : (⟨3, ![4, 2048, 4096]⟩ : Shape).Idx → EReal) (x3 x4 x5 : (⟨1, ![4096]⟩ : Shape).Idx → EReal)
    (x6 : (⟨2, ![4096, 16384]⟩ : Shape).Idx → EReal) (x7 : (⟨1, ![16384]⟩ : Shape).Idx → EReal)
    (x8 : (⟨2, ![16384, 4096]⟩ : Shape).Idx → EReal) (x9 : (⟨1, ![4096]⟩ : Shape).Idx → EReal) :
    (⟨3, ![4, 2048, 4096]⟩ : Shape).Idx → EReal :=
  fun i => Row.out (resRow x0 x1 x3 (i 0) (i 1)) (vecOf x4) (vecOf x5) (matOf x6) (vecOf x7) (matOf x8) (vecOf x9) (i 2)

/-- The batch coordinate of row `p` of the row block that grid point `n` works on (the remainder only makes it a
    coordinate for every natural `n`; for the 512 grid points it changes nothing). -/
def rowB (n : ℕ) (p : Fin 512) : Fin 4 := ⟨((512 * (n / 32) + p.val) / 2048) % 4, Nat.mod_lt _ (by norm_num)⟩
/-- Its sequence coordinate. -/
def rowS (n : ℕ) (p : Fin 512) : Fin 2048 := ⟨(512 * (n / 32) + p.val) % 2048, Nat.mod_lt _ (by norm_num)⟩

end Cert.Hand.Arr

end
-- ==== Proof.RefRow.lean ====
/-
  The reference program computes the layer.

  The reference is read one stage at a time, at an index given by its coordinates (b, s, h): the sum of the two inputs
  and the bias is the row (b, s) of Arrays.lean; the two sums over the last axis, each divided by the row length, are
  the row's mean and mean squared deviation; the scaled, shifted deviation is the normalised row; the first product
  with its bias is the hidden pre-activation; the tanh form of GELU of it is the hidden activation (the reference
  cubes as (u * u) * u, the specification as u * (u * u)); the second product plus the row plus the output bias is
  the row of the result.
-/
import proofs.«166051_j77189152243985_1_alg».proof.Proof.Gen.ReferenceIdeal.Read
import proofs.«166051_j77189152243985_1_alg».proof.Proof.Arrays
import Idealize.ShloMosaic.Lib.ValueIdx
import Idealize.ShloMosaic.PureOps.Ideal.Laws

noncomputable section

open scoped BigOperators

namespace Cert.Hand.Ref

open Idealize.ShloMosaic Idealize.ShloMosaic.TcCoe Idealize.ShloMosaic.ValueIdx Idealize.SL.Sem
open Cert.ReferenceIdeal Cert.ReferenceIdeal.Gen Cert.ReferenceIdeal.Read Cert.Hand

section Stages

variable (x0 x1 : (⟨S4x2048x4096, .f32⟩ : BufTy).Contents (Elt Ideal)) (x3 x4 x5 : (⟨S4096, .f32⟩ : BufTy).Contents (Elt Ideal))
    (x6 : (⟨S4096x16384, .f32⟩ : BufTy).Contents (Elt Ideal)) (x7 : (⟨S16384, .f32⟩ : BufTy).Contents (Elt Ideal))
    (x8 : (⟨S16384x4096, .f32⟩ : BufTy).Contents (Elt Ideal)) (x9 : (⟨S4096, .f32⟩ : BufTy).Contents (Elt Ideal))
    (b : Fin 4) (s : Fin 2048)

/-! ## Vectors repeated over the rows

A vector laid along the last axis of a [1, 1, n] array and repeated over the first two axes holds its entry h at
(b, s, h). -/

theorem bias_at (h : Fin 4096) : val_main_v2 (F := Ideal) x3 (ix3 b s h) = x3 (ix1 h) := by
  rw [val_main_v2_apply, val_main_v1_apply]
  exact congrArg x3 (funext fun a => Fin.ext (by match a with | ⟨0, _⟩ => rfl))

theorem gain_at (h : Fin 4096) : val_main_v23 (F := Ideal) x4 (ix3 b s h) = x4 (ix1 h) := by
  rw [val_main_v23_apply, val_main_v22_apply]
  exact congrArg x4 (funext fun a => Fin.ext (by match a with | ⟨0, _⟩ => rfl))

theorem shift_at (h : Fin 4096) : val_main_v26 (F := Ideal) x5 (ix3 b s h) = x5 (ix1 h) := by
  rw [val_main_v26_apply, val_main_v25_apply]
  exact congrArg x5 (funext fun a => Fin.ext (by match a with | ⟨0, _⟩ => rfl))

theorem hiddenBias_at (k : Fin 16384) : val_main_v30 (F := Ideal) x7 (ix3 b s k) = x7 (ix1 k) := by
  rw [val_main_v30_apply, val_main_v29_apply]
  exact congrArg x7 (funext fun a => Fin.ext (by match a with | ⟨0, _⟩ => rfl))

theorem outBias_at (q : Fin 4096) : val_main_v48 (F := Ideal) x9 (ix3 b s q) = x9 (ix1 q) := by
  rw [val_main_v48_apply, val_main_v47_apply]
  exact congrArg x9 (funext fun a => Fin.ext (by match a with | ⟨0, _⟩ => rfl))

/-! ## The row, its mean and its mean squared deviation -/

/-- Input plus residual plus bias, at (b, s, h), is entry h of row (b, s). -/
theorem res_at (h : Fin 4096) : val_main_v3 (F := Ideal) x0 x1 x3 (ix3 b s h) = Arr.resRow x0 x1 x3 b s h := by
  rw [val_main_v3_apply, val_main_v0_apply, bias_at]
  rfl

/-- The sum over the last axis, started from the float word of zero, is the sum of the row. -/
theorem sum_at : val_main_v4 (F := Ideal) x0 x1 x3 (ix2 b s) = ∑ h, Arr.resRow x0 x1 x3 b s h := by
  rw [val_main_v4_apply, val_main_cst_apply, Ideal.ofBits_def, Ideal.ofBits_zero_f32, zero_add]
  refine Finset.sum_congr rfl fun k _ => ?_
  have e : idx_main_v4 (ix2 b s) k = ix3 b s k :=
    funext fun a => Fin.ext (by match a with | ⟨0, _⟩ => rfl | ⟨1, _⟩ => rfl | ⟨2, _⟩ => rfl)
  rw [e, res_at]

/-- The sum divided by the row length is the mean of the row. -/
theorem mean_at (z : Fin 1) : val_main_v7 (F := Ideal) x0 x1 x3 (ix3 b s z) = Row.mean (Arr.resRow x0 x1 x3 b s) := by
  rw [val_main_v7_apply, val_main_v5_apply, val_main_v6_apply, val_main_cst_0_apply]
  have e : idx_main_v5 (ix3 b s z) = ix2 b s :=
    funext fun a => Fin.ext (by match a with | ⟨0, _⟩ => rfl | ⟨1, _⟩ => rfl)
  rw [e, sum_at]
  rfl

/-- The deviation from the mean (the operand of the square). -/
theorem dev_at (h : Fin 4096) :
    val_main_v9 (F := Ideal) x0 x1 x3 (ix3 b s h) = Arr.resRow x0 x1 x3 b s h - Row.mean (Arr.resRow x0 x1 x3 b s) := by
  rw [val_main_v9_apply, val_main_v8_apply, res_at]
  have e : idx_main_v8 (ix3 b s h) = ix3 b s (0 : Fin 1) :=
    funext fun a => Fin.ext (by match a with | ⟨0, _⟩ => rfl | ⟨1, _⟩ => rfl | ⟨2, _⟩ => rfl)
  rw [e, mean_at]
  rfl

/-- The deviation from the mean (the operand of the scaling). -/
theorem dev'_at (h : Fin 4096) :
    val_main_v16 (F := Ideal) x0 x1 x3 (ix3 b s h) = Arr.resRow x0 x1 x3 b s h - Row.mean (Arr.resRow x0 x1 x3 b s) := by
  rw [val_main_v16_apply, val_main_v15_apply, res_at]
  have e : idx_main_v15 (ix3 b s h) = ix3 b s (0 : Fin 1) :=
    funext fun a => Fin.ext (by match a with | ⟨0, _⟩ => rfl | ⟨1, _⟩ => rfl | ⟨2, _⟩ => rfl)
  rw [e, mean_at]
  rfl

/-- The sum of the squared deviations over the last axis. -/
theorem sqsum_at : val_main_v11 (F := Ideal) x0 x1 x3 (ix2 b s)
    = ∑ h, (Arr.resRow x0 x1 x3 b s h - Row.mean (Arr.resRow x0 x1 x3 b s))
        * (Arr.resRow x0 x1 x3 b s h - Row.mean (Arr.resRow x0 x1 x3 b s)) := by
  rw [val_main_v11_apply, val_main_cst_1_apply, Ideal.ofBits_def, Ideal.ofBits_zero_f32, zero_add]
  refine Finset.sum_congr rfl fun k _ => ?_
  have e : idx_main_v11 (ix2 b s) k = ix3 b s k :=
    funext fun a => Fin.ext (by match a with | ⟨0, _⟩ => rfl | ⟨1, _⟩ => rfl | ⟨2, _⟩ => rfl)
  rw [e, val_main_v10_apply, dev_at]
  rfl

/-- That sum divided by the row length is the mean squared deviation of the row. -/
theorem var_at (z : Fin 1) : val_main_v14 (F := Ideal) x0 x1 x3 (ix3 b s z) = Row.var (Arr.resRow x0 x1 x3 b s) := by
  rw [val_main_v14_apply, val_main_v12_apply, val_main_v13_apply, val_main_cst_2_apply]
  have e : idx_main_v12 (ix3 b s z) = ix2 b s :=
    funext fun a => Fin.ext (by match a with | ⟨0, _⟩ => rfl | ⟨1, _⟩ => rfl)
  rw [e, sqsum_at]
  rfl

/-- The reciprocal square root of the offset mean squared deviation. -/
theorem rstd_at (z : Fin 1) :
    val_main_v19 (F := Ideal) x0 x1 x3 (ix3 b s z) = Ideal.rsqrt (Row.var (Arr.resRow x0 x1 x3 b s) + Row.wEps) := by
  rw [val_main_v19_apply, val_main_v18_apply, val_main_v17_apply, val_main_cst_3_apply, var_at]
  rfl

/-! ## The normalised row, the hidden activations and the result -/

/-- The scaled deviation with gain and shift is the normalised row. -/
theorem norm_at (h : Fin 4096) : val_main_v27 (F := Ideal) x0 x1 x3 x4 x5 (ix3 b s h)
    = Row.norm (Arr.resRow x0 x1 x3 b s) (Arr.vecOf x4) (Arr.vecOf x5) h := by
  rw [val_main_v27_apply, val_main_v24_apply, val_main_v21_apply, val_main_v20_apply, dev'_at, gain_at, shift_at]
  have e : idx_main_v20 (ix3 b s h) = ix3 b s (0 : Fin 1) :=
    funext fun a => Fin.ext (by match a with | ⟨0, _⟩ => rfl | ⟨1, _⟩ => rfl | ⟨2, _⟩ => rfl)
  rw [e, rstd_at]
  rfl

/-- The first product plus its bias, at hidden column k, is the pre-activation of the normalised row against
    column k of the first weight matrix. -/
theorem pre_at (k : Fin 16384) : val_main_v31 (F := Ideal) x0 x1 x3 x4 x5 x6 x7 (ix3 b s k)
    = Row.pre (Arr.resRow x0 x1 x3 b s) (Arr.vecOf x4) (Arr.vecOf x5) (fun h => x6 (ix2 h k)) (x7 (ix1 k)) := by
  rw [val_main_v31_apply, val_main_v28_apply, hiddenBias_at]
  refine congrArg (· + x7 (ix1 k)) (Finset.sum_congr rfl fun h _ => ?_)
  have el : lidx_main_v28 (ix3 b s k) h = ix3 b s h :=
    funext fun a => Fin.ext (by match a with | ⟨0, _⟩ => rfl | ⟨1, _⟩ => rfl | ⟨2, _⟩ => rfl)
  have er : ridx_main_v28 (ix3 b s k) h = ix2 h k :=
    funext fun a => Fin.ext (by match a with | ⟨0, _⟩ => rfl | ⟨1, _⟩ => rfl)
  rw [el, er, norm_at]

/-- The tanh form of GELU of the pre-activation is the hidden activation. -/
theorem act_at (k : Fin 16384) : val_main_v44 (F := Ideal) x0 x1 x3 x4 x5 x6 x7 (ix3 b s k)
    = Row.act (Arr.resRow x0 x1 x3 b s) (Arr.vecOf x4) (Arr.vecOf x5) (fun h => x6 (ix2 h k)) (x7 (ix1 k)) := by
  rw [val_main_v44_apply, val_main_v43_apply, val_main_v42_apply, val_main_cst_7_apply, val_main_v41_apply,
    val_main_v40_apply, val_main_cst_6_apply, val_main_v39_apply, val_main_v38_apply, val_main_v37_apply,
    val_main_cst_5_apply, val_main_v36_apply, val_main_v35_apply, val_main_v34_apply, val_main_cst_4_apply,
    val_main_v33_apply, val_main_v32_apply, pre_at]
  unfold Row.act Row.gelu
  generalize Row.pre (Arr.resRow x0 x1 x3 b s) (Arr.vecOf x4) (Arr.vecOf x5) (fun h => x6 (ix2 h k)) (x7 (ix1 k)) = u
  show u * (Row.wHalf * (Row.wOne + Ideal.tanh (Row.wScale * (u + Row.wCube * (u * u * u)))))
    = u * (Row.wHalf * (Row.wOne + Ideal.tanh (Row.wScale * (u + Row.wCube * (u * (u * u))))))
  rw [mul_comm (u * u) u]

/-- The second product plus the row plus the output bias is the row of the result. -/
theorem out_at (q : Fin 4096) : val_main_v49 (F := Ideal) x0 x1 x3 x4 x5 x6 x7 x8 x9 (ix3 b s q)
    = Row.out (Arr.resRow x0 x1 x3 b s) (Arr.vecOf x4) (Arr.vecOf x5) (Arr.matOf x6) (Arr.vecOf x7) (Arr.matOf x8)
        (Arr.vecOf x9) q := by
  rw [val_main_v49_apply, val_main_v46_apply, val_main_v45_apply, res_at, outBias_at]
  refine congrArg (fun t => t + Arr.resRow x0 x1 x3 b s q + x9 (ix1 q)) (Finset.sum_congr rfl fun k _ => ?_)
  have el : lidx_main_v45 (ix3 b s q) k = ix3 b s k :=
    funext fun a => Fin.ext (by match a with | ⟨0, _⟩ => rfl | ⟨1, _⟩ => rfl | ⟨2, _⟩ => rfl)
  have er : ridx_main_v45 (ix3 b s q) k = ix2 k q :=
    funext fun a => Fin.ext (by match a with | ⟨0, _⟩ => rfl | ⟨1, _⟩ => rfl)
  rw [el, er, act_at]

end Stages

/-- The reference's last stage, as a function of the argument arrays, is the layer of Arrays.lean. -/
theorem ref_layer (x0 x1 : (⟨S4x2048x4096, .f32⟩ : BufTy).Contents (Elt Ideal)) (x3 x4 x5 : (⟨S4096, .f32⟩ : BufTy).Contents (Elt Ideal))
    (x6 : (⟨S4096x16384, .f32⟩ : BufTy).Contents (Elt Ideal)) (x7 : (⟨S16384, .f32⟩ : BufTy).Contents (Elt Ideal))
    (x8 : (⟨S16384x4096, .f32⟩ : BufTy).Contents (Elt Ideal)) (x9 : (⟨S4096, .f32⟩ : BufTy).Contents (Elt Ideal)) :
    val_main_v49 (F := Ideal) x0 x1 x3 x4 x5 x6 x7 x8 x9 = Arr.layer x0 x1 x3 x4 x5 x6 x7 x8 x9 := by
  funext i
  exact (congrArg (val_main_v49 (F := Ideal) x0 x1 x3 x4 x5 x6 x7 x8 x9) (eq_ix3 i)).trans
    (out_at x0 x1 x3 x4 x5 x6 x7 x8 x9 (i 0) (i 1) (i 2))

end Cert.Hand.Ref

end
-- ==== Proof.Pieces.lean ====
/-
  What each control case of the kernel body leaves in the output block's buffer, as a value.

  The body has three cases over the grid's second coordinate (the hidden block): the first hidden block clears the
  output block and adds its share; a middle one adds its share to what the block held; the last one adds its share
  and then the row block and the output bias. Each case's stores cover the whole block, so what the buffer holds
  afterwards is the last store's value, with any read of the buffer between two stores reading the earlier store.
-/
import proofs.«166051_j77189152243985_1_alg».proof.Proof.Gen.KernelIdeal.Frame
import Idealize.ShloMosaic.Lib.Pipeline.Value
import Idealize.ShloMosaic.Lib.Tactic

set_option maxRecDepth 16384

noncomputable section

namespace Cert.Hand.Piece

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- A middle hidden block: the block's share is added to what the output block held. -/
theorem out_B (c : Dev nD) (i : grid0.Coords) (arg2 : Memref sig .tc .vmem S512x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S4096x512 .bf16) (harg5 : arg5.IsWhole) (arg6 : Memref sig .tc .vmem S1x512 .f32) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .f32) (harg9 : arg9.IsWhole) (hc0 : ¬cond0_0 i) (hc1 : ¬cond0_1 i)
    (x0 : Vec F S512x4096 .f32) (x1 : Vec F S1x4096 .f32) (x2 : Vec F S1x4096 .f32) (x3 : Vec F S4096x512 .bf16) (x4 : Vec F S1x512 .f32) (x5 : Vec F S512x4096 .bf16) (x6 : Vec F S1x4096 .f32) (xo7 : Vec F S512x4096 .f32) :
    out0_B_7 c i arg2 harg2 arg3 harg3 arg4 harg4 arg5 harg5 arg6 harg6 arg7 harg7 arg8 harg8 arg9 harg9 hc0 hc1 x0 x1 x2 x3 x4 x5 x6 xo7
      = k0_pay2 (k0_pay5 x0 x1 x2 x3 x4) (k0_pay6 x0 x1 x2 x3 x4) x5 xo7 := by
  unfold out0_B_7
  rw [View.read_writes_eq_canon _ _ _ (cover0_B_7 c i arg2 harg2 arg3 harg3 arg4 harg4 arg5 harg5 arg6 harg6 arg7 harg7 arg8 harg8 arg9 harg9 hc0 hc1 x0 x1 x2 x3 x4 x5 x6 xo7)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S512x4096) hz, View.ld_unit_zero (S := S1x4096) hz, View.ld_unit_zero (S := S4096x512) hz, View.ld_unit_zero (S := S1x512) hz]

/-- The first hidden block: the output block is cleared, and the block's share is added to the cleared block. -/
theorem out_A (c : Dev nD) (i : grid0.Coords) (arg2 : Memref sig .tc .vmem S512x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S4096x512 .bf16) (harg5 : arg5.IsWhole) (arg6 : Memref sig .tc .vmem S1x512 .f32) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .f32) (harg9 : arg9.IsWhole) (hc0 : cond0_0 i) (hc1 : ¬cond0_1 i)
    (x0 : Vec F S512x4096 .f32) (x1 : Vec F S1x4096 .f32) (x2 : Vec F S1x4096 .f32) (x3 : Vec F S4096x512 .bf16) (x4 : Vec F S1x512 .f32) (x5 : Vec F S512x4096 .bf16) (x6 : Vec F S1x4096 .f32) :
    out0_A_7 c i arg2 harg2 arg3 harg3 arg4 harg4 arg5 harg5 arg6 harg6 arg7 harg7 arg8 harg8 arg9 harg9 hc0 hc1 x0 x1 x2 x3 x4 x5 x6
      = k0_pay2 (k0_pay5 x0 x1 x2 x3 x4) (k0_pay6 x0 x1 x2 x3 x4) x5 (k0_pay1 (F := F)) := by
  unfold out0_A_7
  rw [View.read_writes_eq_canon _ _ _ (cover0_A_7 c i arg2 harg2 arg3 harg3 arg4 harg4 arg5 harg5 arg6 harg6 arg7 harg7 arg8 harg8 arg9 harg9 hc0 hc1 x0 x1 x2 x3 x4 x5 x6)]
  unfold kernelRun0_A
  dsimp only
  sl_unfold_words
  rw [View.canon_cons_unit_zero (S := S512x4096) hz, View.readCov_unit_zero (S := S512x4096) _ hz]
  simp only [View.readAt_eq_ld, harg2.read_unread, harg3.read_unread, harg4.read_unread, harg5.read_unread, harg6.read_unread, harg7.read_unread, harg8.read_unread, harg9.read_unread, View.ld_unit_zero (S := S512x4096) hz, View.ld_unit_zero (S := S1x4096) hz, View.ld_unit_zero (S := S4096x512) hz, View.ld_unit_zero (S := S1x512) hz]

/-- The last hidden block: the block's share is added to what the output block held, then the row block and the
    output bias are added to that. -/
theorem out_C (c : Dev nD) (i : grid0.Coords) (arg2 : Memref sig .tc .vmem S512x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S4096x512 .bf16) (harg5 : arg5.IsWhole) (arg6 : Memref sig .tc .vmem S1x512 .f32) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .f32) (harg9 : arg9.IsWhole) (hc0 : ¬cond0_0 i) (hc1 : cond0_1 i)
    (x0 : Vec F S512x4096 .f32) (x1 : Vec F S1x4096 .f32) (x2 : Vec F S1x4096 .f32) (x3 : Vec F S4096x512 .bf16) (x4 : Vec F S1x512 .f32) (x5 : Vec F S512x4096 .bf16) (x6 : Vec F S1x4096 .f32) (xo7 : Vec F S512x4096 .f32) :
    out0_C_7 c i arg2 harg2 arg3 harg3 arg4 harg4 arg5 harg5 arg6 harg6 arg7 harg7 arg8 harg8 arg9 harg9 hc0 hc1 x0 x1 x2 x3 x4 x5 x6 xo7
      = k0_pay3 (k0_pay4 x0) (k0_pay2 (k0_pay5 x0 x1 x2 x3 x4) (k0_pay6 x0 x1 x2 x3 x4) x5 xo7) x6 := by
  unfold out0_C_7
  rw [View.read_writes_eq_canon _ _ _ (cover0_C_7 c i arg2 harg2 arg3 harg3 arg4 harg4 arg5 harg5 arg6 harg6 arg7 harg7 arg8 harg8 arg9 harg9 hc0 hc1 x0 x1 x2 x3 x4 x5 x6 xo7)]
  unfold kernelRun0_C
  dsimp only
  sl_unfold_words
  rw [View.canon_cons_unit_zero (S := S512x4096) hz, View.readCov_unit_zero (S := S512x4096) _ hz]
  simp only [View.readAt_eq_ld, harg2.read_unread, harg3.read_unread, harg4.read_unread, harg5.read_unread, harg6.read_unread, harg7.read_unread, harg8.read_unread, harg9.read_unread, View.ld_unit_zero (S := S512x4096) hz, View.ld_unit_zero (S := S1x4096) hz, View.ld_unit_zero (S := S4096x512) hz, View.ld_unit_zero (S := S1x512) hz]

end Cert.Hand.Piece

end
-- ==== Proof.LibRowBlock.lean ====
/-
  Row blocks of a matrix under operations that treat rows independently, at the exact instance.

  A matrix `a` with `B` rows IS THE `t`-TH ROW BLOCK of a matrix `A` with the same columns when
  `a (p, j) = A (B·t + p, j)` for every row `p` of the block. Every operation that computes row `r` of its
  result from rows `r` of its operands alone sends row blocks to row blocks: a column slice, a concatenation
  along the columns, a pointwise operation, a constant splat, a bias row added to every row, and a product with a
  matrix on the right (row `r` of `L·R` is `∑ₖ L(r,k)·R(k,·)`). The lemmas below say so, one per operation,
  with the whole-matrix side spelt as a host program spells it and the block side as a kernel body does.
-/
import Idealize.ShloMosaic.Lib.ValueIdx
import Idealize.ShloMosaic.Lib.ValueLayout
import Idealize.ShloMosaic.Lib.Pipeline.Value
import Idealize.ShloMosaic.PureOps.Ideal.Laws

noncomputable section

namespace Cert.RowBlock

open Idealize.ShloMosaic Idealize.ShloMosaic.ValueIdx

/-- `a` is rows `B·t, …, B·t + B − 1` of `A`. -/
def IsRows {α : Type} {N n : Nat} (B t : Nat) (A : (⟨2, ![N, n]⟩ : Shape).Idx → α) (a : (⟨2, ![B, n]⟩ : Shape).Idx → α) : Prop :=
  ∀ (p : Fin B) (j : Fin n) (r : Fin N), r.val = B * t + p.val → a (ix2 p j) = A (ix2 r j)

namespace IsRows

variable {α : Type} {N n B t : Nat}

/-! ## Layout -/

/-- Columns `o, …, o + m − 1` of a row block are the row block of those columns. -/
theorem slice {A : (⟨2, ![N, n]⟩ : Shape).Idx → α} {a : (⟨2, ![B, n]⟩ : Shape).Idx → α} (H : IsRows B t A a) (o m : Nat)
    (hA : (⟨2, ![N, n]⟩ : Shape).Slices ![0, o] ⟨2, ![N, m]⟩) (ha : (⟨2, ![B, n]⟩ : Shape).Slices ![0, o] ⟨2, ![B, m]⟩) :
    IsRows B t (extractStridedSlice ⟨2, ![N, m]⟩ ![0, o] A hA) (extractStridedSlice ⟨2, ![B, m]⟩ ![0, o] a ha) := by
  intro p j r hr
  rw [slice2_axis1_eq, slice2_axis1_eq]
  exact H p _ r hr

/-- A concatenation along the columns read at column `j`: piece `k`, whose columns start at `pre`, at column `j − pre`. -/
theorem concat_cols_apply {R n m : Nat} (xs : List ((s : Shape) × (s.Idx → α)))
    (h : Shape.Concatenates (xs.map (·.1)) ⟨2, ![R, n]⟩ 1)
    (k : Nat) (hk : k < xs.length) (x : (⟨2, ![R, m]⟩ : Shape).Idx → α) (hxk : xs[k] = ⟨⟨2, ![R, m]⟩, x⟩) (pre : Nat)
    (hpre : (((xs.take k).map (·.1)).map fun s => if h : s.rank = (⟨2, ![R, n]⟩ : Shape).rank
        then s.size ((1 : Fin (⟨2, ![R, n]⟩ : Shape).rank).cast h.symm) else 0).sum = pre)
    (r : Fin R) (j : Fin n) (j' : Fin m) (hj : pre + j'.val = j.val) :
    concatenate ⟨2, ![R, n]⟩ 1 xs h (ix2 r j) = x (ix2 r j') :=
  concatenate_apply_piece 1 xs h (ix2 r j) k hk _ x hxk rfl pre hpre (ix2 r j')
    (fun b hb => by
      match b with
      | ⟨0, _⟩ => rfl
      | ⟨1, _⟩ => exact absurd rfl hb) hj

/-- Two row blocks side by side are the row block of the two matrices side by side. -/
theorem concat2 {n₁ n₂ : Nat} {A₁ : (⟨2, ![N, n₁]⟩ : Shape).Idx → α} {a₁ : (⟨2, ![B, n₁]⟩ : Shape).Idx → α}
    {A₂ : (⟨2, ![N, n₂]⟩ : Shape).Idx → α} {a₂ : (⟨2, ![B, n₂]⟩ : Shape).Idx → α}
    (H₁ : IsRows B t A₁ a₁) (H₂ : IsRows B t A₂ a₂) (hn : n = n₁ + n₂)
    (hA : Shape.Concatenates [(⟨2, ![N, n₁]⟩ : Shape), ⟨2, ![N, n₂]⟩] ⟨2, ![N, n]⟩ 1)
    (ha : Shape.Concatenates [(⟨2, ![B, n₁]⟩ : Shape), ⟨2, ![B, n₂]⟩] ⟨2, ![B, n]⟩ 1) :
    IsRows B t (concatenate ⟨2, ![N, n]⟩ 1 [⟨⟨2, ![N, n₁]⟩, A₁⟩, ⟨⟨2, ![N, n₂]⟩, A₂⟩] hA)
      (concatenate ⟨2, ![B, n]⟩ 1 [⟨⟨2, ![B, n₁]⟩, a₁⟩, ⟨⟨2, ![B, n₂]⟩, a₂⟩] ha) := by
  intro p j r hr
  by_cases hj : j.val < n₁
  · rw [concat_cols_apply [⟨⟨2, ![N, n₁]⟩, A₁⟩, ⟨⟨2, ![N, n₂]⟩, A₂⟩] hA 0 (by simp) A₁ rfl 0 rfl r j ⟨j.val, hj⟩ (Nat.zero_add _),
      concat_cols_apply [⟨⟨2, ![B, n₁]⟩, a₁⟩, ⟨⟨2, ![B, n₂]⟩, a₂⟩] ha 0 (by simp) a₁ rfl 0 rfl p j ⟨j.val, hj⟩ (Nat.zero_add _)]
    exact H₁ p _ r hr
  · have hj2 : j.val - n₁ < n₂ := by have := j.isLt; omega
    have hj3 : n₁ + (j.val - n₁) = j.val := by omega
    rw [concat_cols_apply [⟨⟨2, ![N, n₁]⟩, A₁⟩, ⟨⟨2, ![N, n₂]⟩, A₂⟩] hA 1 (by simp) A₂ rfl n₁ rfl r j ⟨j.val - n₁, hj2⟩ hj3,
      concat_cols_apply [⟨⟨2, ![B, n₁]⟩, a₁⟩, ⟨⟨2, ![B, n₂]⟩, a₂⟩] ha 1 (by simp) a₂ rfl n₁ rfl p j ⟨j.val - n₁, hj2⟩ hj3]
    exact H₂ p _ r hr

/-- Six row blocks side by side are the row block of the six matrices side by side. -/
theorem concat6 {n₁ n₂ n₃ n₄ n₅ n₆ : Nat}
    {A₁ : (⟨2, ![N, n₁]⟩ : Shape).Idx → α} {a₁ : (⟨2, ![B, n₁]⟩ : Shape).Idx → α}
    {A₂ : (⟨2, ![N, n₂]⟩ : Shape).Idx → α} {a₂ : (⟨2, ![B, n₂]⟩ : Shape).Idx → α}
    {A₃ : (⟨2, ![N, n₃]⟩ : Shape).Idx → α} {a₃ : (⟨2, ![B, n₃]⟩ : Shape).Idx → α}
    {A₄ : (⟨2, ![N, n₄]⟩ : Shape).Idx → α} {a₄ : (⟨2, ![B, n₄]⟩ : Shape).Idx → α}
    {A₅ : (⟨2, ![N, n₅]⟩ : Shape).Idx → α} {a₅ : (⟨2, ![B, n₅]⟩ : Shape).Idx → α}
    {A₆ : (⟨2, ![N, n₆]⟩ : Shape).Idx → α} {a₆ : (⟨2, ![B, n₆]⟩ : Shape).Idx → α}
    (H₁ : IsRows B t A₁ a₁) (H₂ : IsRows B t A₂ a₂) (H₃ : IsRows B t A₃ a₃) (H₄ : IsRows B t A₄ a₄)
    (H₅ : IsRows B t A₅ a₅) (H₆ : IsRows B t A₆ a₆) (hn : n = n₁ + n₂ + n₃ + n₄ + n₅ + n₆)
    (hA : Shape.Concatenates [(⟨2, ![N, n₁]⟩ : Shape), ⟨2, ![N, n₂]⟩, ⟨2, ![N, n₃]⟩, ⟨2, ![N, n₄]⟩, ⟨2, ![N, n₅]⟩, ⟨2, ![N, n₆]⟩] ⟨2, ![N, n]⟩ 1)
    (ha : Shape.Concatenates [(⟨2, ![B, n₁]⟩ : Shape), ⟨2, ![B, n₂]⟩, ⟨2, ![B, n₃]⟩, ⟨2, ![B, n₄]⟩, ⟨2, ![B, n₅]⟩, ⟨2, ![B, n₆]⟩] ⟨2, ![B, n]⟩ 1) :
    IsRows B t
      (concatenate ⟨2, ![N, n]⟩ 1 [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA)
      (concatenate ⟨2, ![B, n]⟩ 1 [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha) := by
  intro p j r hr
  have hjn := j.isLt
  by_cases c₁ : j.val < n₁
  · rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 0 (by simp) A₁ rfl 0 rfl r j ⟨j.val, c₁⟩ (Nat.zero_add _),
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 0 (by simp) a₁ rfl 0 rfl p j ⟨j.val, c₁⟩ (Nat.zero_add _)]
    exact H₁ p _ r hr
  by_cases c₂ : j.val < n₁ + n₂
  · have hb : j.val - n₁ < n₂ := by omega
    have he : n₁ + (j.val - n₁) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 1 (by simp) A₂ rfl n₁ rfl r j ⟨j.val - n₁, hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 1 (by simp) a₂ rfl n₁ rfl p j ⟨j.val - n₁, hb⟩ he]
    exact H₂ p _ r hr
  by_cases c₃ : j.val < n₁ + n₂ + n₃
  · have hb : j.val - (n₁ + n₂) < n₃ := by omega
    have he : n₁ + n₂ + (j.val - (n₁ + n₂)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 2 (by simp) A₃ rfl (n₁ + n₂) (by simp) r j ⟨j.val - (n₁ + n₂), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 2 (by simp) a₃ rfl (n₁ + n₂) (by simp) p j ⟨j.val - (n₁ + n₂), hb⟩ he]
    exact H₃ p _ r hr
  by_cases c₄ : j.val < n₁ + n₂ + n₃ + n₄
  · have hb : j.val - (n₁ + n₂ + n₃) < n₄ := by omega
    have he : n₁ + n₂ + n₃ + (j.val - (n₁ + n₂ + n₃)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 3 (by simp) A₄ rfl (n₁ + n₂ + n₃) (by simp; omega) r j ⟨j.val - (n₁ + n₂ + n₃), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 3 (by simp) a₄ rfl (n₁ + n₂ + n₃) (by simp; omega) p j ⟨j.val - (n₁ + n₂ + n₃), hb⟩ he]
    exact H₄ p _ r hr
  by_cases c₅ : j.val < n₁ + n₂ + n₃ + n₄ + n₅
  · have hb : j.val - (n₁ + n₂ + n₃ + n₄) < n₅ := by omega
    have he : n₁ + n₂ + n₃ + n₄ + (j.val - (n₁ + n₂ + n₃ + n₄)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 4 (by simp) A₅ rfl (n₁ + n₂ + n₃ + n₄) (by simp; omega) r j ⟨j.val - (n₁ + n₂ + n₃ + n₄), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 4 (by simp) a₅ rfl (n₁ + n₂ + n₃ + n₄) (by simp; omega) p j ⟨j.val - (n₁ + n₂ + n₃ + n₄), hb⟩ he]
    exact H₅ p _ r hr
  · have hb : j.val - (n₁ + n₂ + n₃ + n₄ + n₅) < n₆ := by omega
    have he : n₁ + n₂ + n₃ + n₄ + n₅ + (j.val - (n₁ + n₂ + n₃ + n₄ + n₅)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 5 (by simp) A₆ rfl (n₁ + n₂ + n₃ + n₄ + n₅) (by simp; omega) r j ⟨j.val - (n₁ + n₂ + n₃ + n₄ + n₅), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 5 (by simp) a₆ rfl (n₁ + n₂ + n₃ + n₄ + n₅) (by simp; omega) p j ⟨j.val - (n₁ + n₂ + n₃ + n₄ + n₅), hb⟩ he]
    exact H₆ p _ r hr

/-- One row broadcast over all rows: its row block is the same row broadcast over the block's rows. -/
theorem bias (b : (⟨1, ![n]⟩ : Shape).Idx → α) (h1 : (⟨1, ![n]⟩ : Shape).BroadcastsInDim ⟨2, ![1, n]⟩ ![1])
    (h2 : (⟨2, ![1, n]⟩ : Shape).BroadcastsInDim ⟨2, ![N, n]⟩ ![0, 1])
    (hc : (⟨1, ![n]⟩ : Shape).ShapeCasts ⟨2, ![1, n]⟩) (hb : (⟨2, ![1, n]⟩ : Shape).Broadcasts ⟨2, ![B, n]⟩) :
    IsRows B t (broadcastInDim ⟨2, ![N, n]⟩ ![0, 1] h2 (broadcastInDim ⟨2, ![1, n]⟩ ![1] h1 b))
      (broadcastTo ⟨2, ![B, n]⟩ (shapeCast ⟨2, ![1, n]⟩ b hc) hb) := by
  intro p j r _
  rw [broadcastTo_1b_ab_apply, shapeCast_a_1a_apply]
  refine Eq.symm ((broadcastInDim_apply ![0, 1] h2 _ (ix2 r j) (ix2 (0 : Fin 1) j) fun a => ?_).trans
    (broadcastInDim_apply ![1] h1 b (ix2 (0 : Fin 1) j) (ix1 j) fun a => ?_))
  · match a with
    | ⟨0, _⟩ => rfl
    | ⟨1, _⟩ =>
      show j.val = if n = 1 then 0 else j.val
      split
      · have := j.isLt; omega
      · rfl
  · match a with
    | ⟨0, _⟩ =>
      show j.val = if n = 1 then 0 else j.val
      split
      · have := j.isLt; omega
      · rfl

/-! ## Pointwise operations at the exact instance -/

section Arith
variable {φ : FTy} {A A' : FVec Ideal ⟨2, ![N, n]⟩ φ} {a a' : FVec Ideal ⟨2, ![B, n]⟩ φ}

/-- A constant splat: every entry is the constant's value, in the matrix and in the block. -/
theorem splat (φ : FTy) (c : BitVec φ.bits) (h : (⟨0, ![]⟩ : Shape).BroadcastsInDim ⟨2, ![N, n]⟩ ![]) :
    IsRows B t (broadcastInDim ⟨2, ![N, n]⟩ ![] h (constant (F := Ideal) ⟨0, ![]⟩ φ c))
      (broadcast ⟨2, ![B, n]⟩ (Scalar.ofBits (F := Ideal) φ c)) :=
  fun _ _ _ _ => rfl

/-- A change of float format is the identity on extended reals. -/
theorem trunc {ψ : FTy} (H : IsRows B t A a) (h : ψ.bits < φ.bits) : IsRows B t A (truncf ψ a h) :=
  fun p j r hr => H p j r hr

theorem add (H : IsRows B t A a) (H' : IsRows B t A' a') : IsRows B t (addf A A') (addf a a') := by
  intro p j r hr
  rw [addf_apply, addf_apply, H p j r hr, H' p j r hr]

theorem mul (H : IsRows B t A a) (H' : IsRows B t A' a') : IsRows B t (mulf A A') (mulf a a') := by
  intro p j r hr
  rw [mulf_apply, mulf_apply, H p j r hr, H' p j r hr]

theorem sub (H : IsRows B t A a) (H' : IsRows B t A' a') : IsRows B t (subf A A') (subf a a') := by
  intro p j r hr
  rw [subf_apply, subf_apply, H p j r hr, H' p j r hr]

theorem maxf (H : IsRows B t A a) (H' : IsRows B t A' a') : IsRows B t (maximumf A A') (maximumf a a') := by
  intro p j r hr
  rw [maximumf_apply, maximumf_apply, H p j r hr, H' p j r hr]

theorem minf (H : IsRows B t A a) (H' : IsRows B t A' a') : IsRows B t (minimumf A A') (minimumf a a') := by
  intro p j r hr
  rw [minimumf_apply, minimumf_apply, H p j r hr, H' p j r hr]

/-- The host's exponential and the kernel's are one function of an extended real. -/
theorem expf (H : IsRows B t A a) : IsRows B t (Host.exp A) (exp a) := by
  intro p j r hr
  show Ideal.exp (a (ix2 p j)) = Ideal.exp (A (ix2 r j))
  rw [H p j r hr]

/-- The host's hyperbolic tangent and the kernel's are one function of an extended real. -/
theorem tanhf (H : IsRows B t A a) : IsRows B t (Host.tanh A) (tanh a) := by
  intro p j r hr
  show Ideal.tanh (a (ix2 p j)) = Ideal.tanh (A (ix2 r j))
  rw [H p j r hr]

end Arith

/-- The word of the float 1 denotes the real 1. -/
theorem ofBits_one_f32 : Ideal.ofBits .f32 0x3F800000#32 = 1 := by
  simp [Ideal.ofBits, Ideal.ieee, -EReal.coe_mul]; norm_num

/-- The logistic function `1 / (1 + e⁻ˣ)`: spelt out with a negation, an exponential, a sum and a quotient on the whole
    matrix, and as one operation on the block; the two are one function of an extended real by definition. -/
theorem sigmoid {A : FVec Ideal ⟨2, ![N, n]⟩ .f32} {a : FVec Ideal ⟨2, ![B, n]⟩ .f32} (H : IsRows B t A a)
    (h1 h2 : (⟨0, ![]⟩ : Shape).BroadcastsInDim ⟨2, ![N, n]⟩ ![]) :
    IsRows B t
      (Host.divf (broadcastInDim ⟨2, ![N, n]⟩ ![] h1 (constant (F := Ideal) ⟨0, ![]⟩ .f32 0x3F800000#32))
        (addf (broadcastInDim ⟨2, ![N, n]⟩ ![] h2 (constant (F := Ideal) ⟨0, ![]⟩ .f32 0x3F800000#32)) (Host.exp (Host.negf A))))
      (logistic a) := by
  intro p j r hr
  show Ideal.logistic (a (ix2 p j))
    = Ideal.div (Ideal.ofBits .f32 0x3F800000#32) (Ideal.ofBits .f32 0x3F800000#32 + Ideal.exp (-(A (ix2 r j))))
  rw [ofBits_one_f32, H p j r hr]
  rfl

/-! ## A product with a matrix on the right -/

/-- The dimension numbers of a plain product `[M, K] × [K, N]`: the left operand contracted on its columns, the right on
    its rows, no batch axis. -/
def Plain {sl sr so : Shape} (D : DotDims sl sr so) (l1 l0 : Fin sl.rank) (r0 r1 : Fin sr.rank) : Prop :=
  D.lhsContracting = [l1] ∧ D.rhsContracting = [r0] ∧ D.lhsNonContracting = [l0] ∧ D.rhsNonContracting = [r1]
    ∧ D.lhsBatch = [] ∧ D.rhsBatch = []

/-- A plain product read at an entry is the sum over the shared axis. -/
theorem dot_plain_sum {M K N' : Nat} (D : DotDims ⟨2, ![M, K]⟩ ⟨2, ![K, N']⟩ ⟨2, ![M, N']⟩) (hD : Plain D 1 0 0 1)
    (L : (⟨2, ![M, K]⟩ : Shape).Idx → EReal) (R : (⟨2, ![K, N']⟩ : Shape).Idx → EReal) (r : Fin M) (c : Fin N') :
    ∑ k : D.contr.Idx, L (D.lhsIdx (ix2 r c) k) * R (D.rhsIdx (ix2 r c) k) = ∑ k : Fin K, L (ix2 r k) * R (ix2 k c) := by
  obtain ⟨lc, rc, ln, rn, lb, rb, wf⟩ := D
  obtain ⟨h1, h2, h3, h4, h5, h6⟩ := hD
  dsimp only at h1 h2 h3 h4 h5 h6
  subst h1 h2 h3 h4 h5 h6
  rw [← Equiv.sum_comp (contrEquiv1 (DotDims.mk [1] [0] [0] [1] [] [] wf) K rfl rfl).symm]
  refine Finset.sum_congr rfl fun k _ => ?_
  have hk := contrEquiv1_symm_val (DotDims.mk [1] [0] [0] [1] [] [] wf) K rfl rfl k
  have l0 : ∀ q, ((DotDims.mk [1] [0] [0] [1] [] [] wf).lhsIdx (ix2 r c) q 0).val = r.val := fun q => by
    unfold DotDims.lhsIdx
    rw [dif_neg (show ¬(0 : Fin 2) ∈ ([] : List (Fin 2)) by decide), dif_pos (show (0 : Fin 2) ∈ ([0] : List (Fin 2)) by decide)]
    rfl
  have r1 : ∀ q, ((DotDims.mk [1] [0] [0] [1] [] [] wf).rhsIdx (ix2 r c) q 1).val = c.val := fun q => by
    unfold DotDims.rhsIdx
    rw [dif_neg (show ¬(1 : Fin 2) ∈ ([] : List (Fin 2)) by decide), dif_pos (show (1 : Fin 2) ∈ ([1] : List (Fin 2)) by decide)]
    rfl
  have el : (DotDims.mk [1] [0] [0] [1] [] [] wf).lhsIdx (ix2 r c) ((contrEquiv1 (DotDims.mk [1] [0] [0] [1] [] [] wf) K rfl rfl).symm k)
      = ix2 r k := funext fun a => Fin.ext (by
    match a with
    | ⟨0, _⟩ => exact l0 _
    | ⟨1, _⟩ => exact ((DotDims.mk [1] [0] [0] [1] [] [] wf).lhsIdx_val_of_single rfl _ _).trans hk)
  have er : (DotDims.mk [1] [0] [0] [1] [] [] wf).rhsIdx (ix2 r c) ((contrEquiv1 (DotDims.mk [1] [0] [0] [1] [] [] wf) K rfl rfl).symm k)
      = ix2 k c := funext fun a => Fin.ext (by
    match a with
    | ⟨0, _⟩ => exact ((DotDims.mk [1] [0] [0] [1] [] [] wf).rhsIdx_val_of_single rfl _ _).trans hk
    | ⟨1, _⟩ => exact r1 _)
  rw [el, er]

/-- Rows of `L·R` depend on the same rows of `L` only: the host's product of the whole matrix against the kernel's
    product of the block into a zero accumulator, the right operand the same matrix on both sides. -/
theorem dot {K M : Nat} {φ₁ φ₂ : FTy} {L : FVec Ideal ⟨2, ![N, K]⟩ .f32} {l : FVec Ideal ⟨2, ![B, K]⟩ φ₁} (H : IsRows B t L l)
    (D : DotDims ⟨2, ![N, K]⟩ ⟨2, ![K, M]⟩ ⟨2, ![N, M]⟩) (d : DotDims ⟨2, ![B, K]⟩ ⟨2, ![K, M]⟩ ⟨2, ![B, M]⟩)
    (hD : Plain D 1 0 0 1) (hd : Plain d 1 0 0 1)
    (R : FVec Ideal ⟨2, ![K, M]⟩ .f32) (r : FVec Ideal ⟨2, ![K, M]⟩ φ₂) (hR : ∀ k j, r (ix2 k j) = R (ix2 k j)) :
    IsRows B t (Host.dotGeneral D none L R) (matmul d none l r (constant ⟨2, ![B, M]⟩ .f32 0x00000000#32)) := by
  intro p j r' hr
  simp only [Host.dotGeneral, matmul]
  rw [Ideal.matmul_constant_zero_apply, Ideal.dotGeneral_apply, dot_plain_sum d hd, dot_plain_sum D hD]
  exact Finset.sum_congr rfl fun k _ => by rw [H p k r' hr, hR]

end IsRows

end Cert.RowBlock

end
-- ==== Proof.LibRowReduce.lean ====
/-
  Row blocks under the operations of a row normalisation, at the exact instance.

  Beside the row-wise operations of LibRowBlock.lean, a layer that normalises each row needs five more, each of which
  again computes row `r` of its result from rows `r` of its operands alone: the quotient, the reciprocal square root,
  a column repeated along every row, the sum of each row kept as a column, and (already there as the splat of a
  constant, at one column) a constant column. The lemmas below say so, with the whole-matrix side spelt as a host
  program spells it and the block side as a kernel body does.
-/
import proofs.«166051_j77189152243985_1_alg».proof.Proof.LibRowBlock

noncomputable section

namespace Cert.RowBlock

open Idealize.ShloMosaic Idealize.ShloMosaic.ValueIdx

/-! ## A trailing unit axis -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a]` array broadcast to `[a, 1]` along its one axis reads, at `(i, u)`, the operand at `i`. -/
theorem broadcastInDim_a_a1_apply {α : Type} {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- An `[a, 1]` column broadcast to `[a, b]` reads, at `(i, c)`, the column at row `i`. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (c : Fin b) :
    broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- An `[a, 1]` column broadcast to `[a, b]` with both axes kept in place reads, at `(i, c)`, the column at row `i`. -/
theorem broadcastInDim_a1_ab_apply {α : Type} {a b : ℕ} (v : (⟨2, ![a, 1]⟩ : Shape).Idx → α)
    (h : (⟨2, ![a, 1]⟩ : Shape).BroadcastsInDim ⟨2, ![a, b]⟩ ![0, 1]) (i : Fin a) (c : Fin b) :
    broadcastInDim ⟨2, ![a, b]⟩ ![0, 1] h v (ix2 i c) = v (ix2 i (0 : Fin 1)) := by
  refine broadcastInDim_apply ![0, 1] h v (ix2 i c) (ix2 i (0 : Fin 1)) fun ax => ?_
  match ax with
  | ⟨0, _⟩ =>
    show i.val = if a = 1 then 0 else i.val
    split
    · have := i.isLt; omega
    · rfl
  | ⟨1, _⟩ => rfl

namespace IsRows

variable {N n B t : Nat}

/-! ## The quotient and the reciprocal square root -/

section Arith
variable {φ : FTy} {A A' : FVec Ideal ⟨2, ![N, n]⟩ φ} {a a' : FVec Ideal ⟨2, ![B, n]⟩ φ}

/-- The host's quotient and the kernel's are one function of two extended reals. -/
theorem div (H : IsRows B t A a) (H' : IsRows B t A' a') : IsRows B t (Host.divf A A') (divf a a') := by
  intro p j r hr
  show Ideal.div (a (ix2 p j)) (a' (ix2 p j)) = Ideal.div (A (ix2 r j)) (A' (ix2 r j))
  rw [H p j r hr, H' p j r hr]

/-- The host's reciprocal square root and the kernel's are one function of an extended real. -/
theorem rsqrtf (H : IsRows B t A a) : IsRows B t (Host.rsqrt A) (rsqrt a) := by
  intro p j r hr
  show Ideal.rsqrt (a (ix2 p j)) = Ideal.rsqrt (A (ix2 r j))
  rw [H p j r hr]

end Arith

/-! ## A column repeated along the rows -/

/-- A column repeated on every column: row `r` of the result is the column's entry `r`, so the row block of the repeated
    column is the repeated row block of the column. -/
theorem cols {α : Type} {V : (⟨2, ![N, 1]⟩ : Shape).Idx → α} {v : (⟨2, ![B, 1]⟩ : Shape).Idx → α} (H : IsRows B t V v)
    (hV : (⟨2, ![N, 1]⟩ : Shape).BroadcastsInDim ⟨2, ![N, n]⟩ ![0, 1]) (hv : (⟨2, ![B, 1]⟩ : Shape).Broadcasts ⟨2, ![B, n]⟩) :
    IsRows B t (broadcastInDim ⟨2, ![N, n]⟩ ![0, 1] hV V) (broadcastTo ⟨2, ![B, n]⟩ v hv) := by
  intro p j r hr
  rw [broadcastTo_a1_ab_apply, broadcastInDim_a1_ab_apply]
  exact H p 0 r hr

/-! ## The sum of each row, as a column -/

/-- The sum of each row: `0 + ∑ⱼ A(r, j)` on the whole matrix, `∑ⱼ a(p, j)` on the block, each kept as a column; row
    `r` of the result is the sum of row `r` of the operand. -/
theorem rowSum {φ : FTy} {A : FVec Ideal ⟨2, ![N, n]⟩ φ} {a : FVec Ideal ⟨2, ![B, n]⟩ φ} (H : IsRows B t A a)
    (z : BitVec φ.bits) (hz : Ideal.ofBits φ z = 0)
    (hR : (⟨2, ![N, n]⟩ : Shape).ReducesTo [1] ⟨1, ![N]⟩) (hu : 0 < (⟨0, ![]⟩ : Shape).numel)
    (hb : (⟨1, ![N]⟩ : Shape).BroadcastsInDim ⟨2, ![N, 1]⟩ ![0])
    (acc : BitVec φ.bits) (hr : (⟨2, ![B, n]⟩ : Shape).Reduces [1] ⟨1, ![B]⟩) (hφ : FKind.Formats φ)
    (hacc : acc = FKind.add.neutral φ hφ) (hc : (⟨1, ![B]⟩ : Shape).ShapeCasts ⟨2, ![B, 1]⟩) :
    IsRows B t
      (broadcastInDim ⟨2, ![N, 1]⟩ ![0] hb (Host.reduceAdd A (constant (F := Ideal) ⟨0, ![]⟩ φ z) hR hu))
      (shapeCast ⟨2, ![B, 1]⟩ (multiReduction .add [1] ⟨1, ![B]⟩ a acc hr hφ hacc) hc) := by
  intro p j r hpr
  have hR' : (⟨2, ![N, n]⟩ : Shape).Reduces [1] ⟨1, ![N]⟩ := ⟨hR.1, Nat.one_pos, hR.2⟩
  rw [shapeCast_a_a1_apply, broadcastInDim_a_a1_apply]
  refine (Ideal.multiReduction_add_single a acc hr hφ hacc (ix1 p)).trans (Eq.symm ?_)
  refine (Ideal.hostReduceAdd_single hR hR' A _ (ix1 r)).trans ?_
  show Ideal.ofBits φ z + ∑ k : Fin n, A (hR'.lift (ix1 r) k) = ∑ k : Fin n, a (hr.lift (ix1 p) k)
  rw [hz, zero_add]
  refine Finset.sum_congr rfl fun k _ => ?_
  have eA : hR'.lift (ix1 r) k = ix2 r k := funext fun c => Fin.ext (by
    match c with
    | ⟨0, _⟩ => rfl
    | ⟨1, _⟩ => rfl)
  have ea : hr.lift (ix1 p) k = ix2 p k := funext fun c => Fin.ext (by
    match c with
    | ⟨0, _⟩ => rfl
    | ⟨1, _⟩ => rfl)
  rw [eA, ea]
  exact (H p k r hpr).symm

end IsRows

end Cert.RowBlock

end
-- ==== Proof.PayloadAt.lean ====
/-
  The kernel body's stored values, entry by entry, over the extended reals.
-/
import proofs.«166051_j77189152243985_1_alg».proof.Proof.Gen.KernelIdeal.Skeleton
import proofs.«166051_j77189152243985_1_alg».proof.Proof.Arrays
import proofs.«166051_j77189152243985_1_alg».proof.Proof.LibRowReduce
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Hand.Pay

open Idealize.ShloMosaic Idealize.ShloMosaic.TcCoe Idealize.ShloMosaic.ValueIdx Idealize.SL.Sem
open Cert.KernelIdeal Cert.KernelIdeal.Gen Cert.Hand

/-- The reset stores zero everywhere. -/
theorem pay1_apply (p : Fin 512) (q : Fin 4096) : k0_pay1 (F := Ideal) (ix2 p q) = 0 :=
  Ideal.ofBits_zero_f32

/-- The row block as loaded. -/
theorem pay4_apply (v0 : Vec Ideal S512x4096 .f32) (p : Fin 512) (q : Fin 4096) :
    k0_pay4 (F := Ideal) v0 (ix2 p q) = v0 (ix2 p q) :=
  congrFun (shapeCast_self v0 _) (ix2 p q)

/-! ## The row statistics, kept as columns

Each row's sum is taken over its 4096 entries and kept as a one-column matrix; the mean and the reciprocal root of the
variance are such columns too, and are repeated along the row when they meet the row block again. -/

/-- The sum of each row kept as a column reads, at `(p, u)`, the sum of row `p`. -/
private theorem rowSumCol_apply (x : FVec Ideal S512x4096 .f32) (hr : S512x4096.Reduces [1] S512)
    (hφ : FKind.Formats .f32) (hacc : (0x00000000#32 : BitVec (FTy.bits .f32)) = FKind.add.neutral .f32 hφ)
    (hc : S512.ShapeCasts S512x1) (p : Fin 512) (u : Fin 1) :
    shapeCast S512x1 (multiReduction (F := Ideal) .add [1] S512 x 0x00000000#32 hr hφ hacc) hc (ix2 p u)
      = ∑ h : Fin 4096, x (ix2 p h) := by
  refine (Cert.RowBlock.shapeCast_a_a1_apply _ hc p u).trans ?_
  refine (Ideal.multiReduction_add_single x _ hr hφ hacc (ix1 p)).trans ?_
  refine Finset.sum_congr rfl fun k _ => congrArg x ?_
  exact funext fun a => Fin.ext (by match a with | ⟨0, _⟩ => rfl | ⟨1, _⟩ => rfl)

/-- The row means, as a column. -/
private def meanCol (v0 : Vec Ideal S512x4096 .f32) : FVec Ideal S512x1 .f32 :=
  divf (shapeCast S512x1 (multiReduction .add [1] S512 (k0_pay4 (F := Ideal) v0) 0x00000000#32 reduces_S512x4096_S512 (.inl rfl) rfl) shapeCasts_S512_S512x1)
    (broadcast S512x1 (Scalar.ofBits .f32 0x45800000#32))

private theorem meanCol_apply (v0 : Vec Ideal S512x4096 .f32) (p : Fin 512) (u : Fin 1) :
    meanCol v0 (ix2 p u) = Row.mean (Arr.rowOf v0 p) :=
  congrArg (fun s => Ideal.div s Row.wWidth)
    ((rowSumCol_apply (k0_pay4 (F := Ideal) v0) _ _ _ _ p u).trans (Finset.sum_congr rfl fun h _ => pay4_apply v0 p h))

/-- The deviations from the row mean. -/
private def devi (v0 : Vec Ideal S512x4096 .f32) : FVec Ideal S512x4096 .f32 :=
  subf (k0_pay4 (F := Ideal) v0) (broadcastTo S512x4096 (meanCol v0) broadcasts_S512x1_S512x4096)

private theorem devi_apply (v0 : Vec Ideal S512x4096 .f32) (p : Fin 512) (h : Fin 4096) :
    devi v0 (ix2 p h) = v0 (ix2 p h) - Row.mean (Arr.rowOf v0 p) :=
  congrArg₂ (· - ·) (pay4_apply v0 p h)
    ((Cert.RowBlock.broadcastTo_a1_ab_apply (meanCol v0) _ p h).trans (meanCol_apply v0 p 0))

/-- The reciprocal root of (variance + offset), as a column. -/
private def rstdCol (v0 : Vec Ideal S512x4096 .f32) : FVec Ideal S512x1 .f32 :=
  rsqrt (addf
    (divf (shapeCast S512x1 (multiReduction .add [1] S512 (mulf (devi v0) (devi v0)) 0x00000000#32 reduces_S512x4096_S512 (.inl rfl) rfl) shapeCasts_S512_S512x1)
      (broadcast S512x1 (Scalar.ofBits .f32 0x45800000#32)))
    (broadcast S512x1 (Scalar.ofBits .f32 0x3727C5AC#32)))

private theorem rstdCol_apply (v0 : Vec Ideal S512x4096 .f32) (p : Fin 512) (u : Fin 1) :
    rstdCol v0 (ix2 p u) = Ideal.rsqrt (Row.var (Arr.rowOf v0 p) + Row.wEps) :=
  congrArg (fun s => Ideal.rsqrt (Ideal.div s Row.wWidth + Row.wEps))
    ((rowSumCol_apply (mulf (devi v0) (devi v0)) _ _ _ _ p u).trans
      (Finset.sum_congr rfl fun h _ => congrArg₂ (· * ·) (devi_apply v0 p h) (devi_apply v0 p h)))

/-- A one-row block repeated over the 512 rows reads, at `(p, h)`, its entry `h`. -/
private theorem rowRep_apply {b : ℕ} (v : Vec Ideal ⟨2, ![1, b]⟩ .f32) (hc : (⟨2, ![1, b]⟩ : Shape).ShapeCasts ⟨2, ![1, b]⟩)
    (hb : (⟨2, ![1, b]⟩ : Shape).Broadcasts ⟨2, ![512, b]⟩) (p : Fin 512) (h : Fin b) :
    broadcastTo ⟨2, ![512, b]⟩ (shapeCast ⟨2, ![1, b]⟩ v hc) hb (ix2 p h) = v (ix2 (0 : Fin 1) h) :=
  (broadcastTo_1b_ab_apply _ hb p h).trans (congrFun (shapeCast_self v hc) _)

/-- The normalised row block with gain and shift. -/
private def normed (v0 : Vec Ideal S512x4096 .f32) (v20 v24 : Vec Ideal S1x4096 .f32) : FVec Ideal S512x4096 .f32 :=
  addf
    (mulf (mulf (devi v0) (broadcastTo S512x4096 (rstdCol v0) broadcasts_S512x1_S512x4096))
      (broadcastTo S512x4096 (shapeCast S1x4096 v20 shapeCasts_S1x4096_S1x4096) broadcasts_S1x4096_S512x4096))
    (broadcastTo S512x4096 (shapeCast S1x4096 v24 shapeCasts_S1x4096_S1x4096) broadcasts_S1x4096_S512x4096)

private theorem normed_apply (v0 : Vec Ideal S512x4096 .f32) (v20 v24 : Vec Ideal S1x4096 .f32) (p : Fin 512) (h : Fin 4096) :
    normed v0 v20 v24 (ix2 p h) = Row.norm (Arr.rowOf v0 p) (Arr.row0 v20) (Arr.row0 v24) h :=
  congrArg₂ (· + ·)
    (congrArg₂ (· * ·)
      (congrArg₂ (· * ·) (devi_apply v0 p h)
        ((Cert.RowBlock.broadcastTo_a1_ab_apply (rstdCol v0) _ p h).trans (rstdCol_apply v0 p 0)))
      (rowRep_apply v20 _ _ p h))
    (rowRep_apply v24 _ _ p h)

/-! ## The first product: the hidden pre-activations of this block -/

/-- The first payload is the normalised block (its format narrowed, which changes no value) against the first weight
    block into a zero accumulator, plus the bias block repeated over the rows. -/
private theorem pay5_eq (v0 : Vec Ideal S512x4096 .f32) (v20 v24 : Vec Ideal S1x4096 .f32) (v29 : Vec Ideal S4096x512 .bf16)
    (v32 : Vec Ideal S1x512 .f32) :
    k0_pay5 (F := Ideal) v0 v20 v24 v29 v32
      = addf
          (matmul (φ₁ := .bf16) (φ₂ := .bf16) dot_S512x4096_S4096x512_S512x512_1_0_0_1_n_n none (truncf .bf16 (normed v0 v20 v24) bitsLt_bf16_f32)
            (shapeCast S4096x512 v29 shapeCasts_S4096x512_S4096x512) (constant S512x512 .f32 0x00000000#32))
          (broadcastTo S512x512 (shapeCast S1x512 v32 shapeCasts_S1x512_S1x512) broadcasts_S1x512_S512x512) :=
  rfl

/-- The pre-activation of row `p` at hidden column `kk` of this block. -/
private theorem pay5_apply (v0 : Vec Ideal S512x4096 .f32) (v20 v24 : Vec Ideal S1x4096 .f32) (v29 : Vec Ideal S4096x512 .bf16)
    (v32 : Vec Ideal S1x512 .f32) (p kk : Fin 512) :
    k0_pay5 (F := Ideal) v0 v20 v24 v29 v32 (ix2 p kk)
      = Row.pre (Arr.rowOf v0 p) (Arr.row0 v20) (Arr.row0 v24) (Arr.colOf v29 kk) (v32 (ix2 (0 : Fin 1) kk)) := by
  rw [pay5_eq]
  refine congrArg₂ (· + ·) ?_ (rowRep_apply v32 _ _ p kk)
  refine (Ideal.matmul_constant_zero_apply _ none _ _ (ix2 p kk)).trans ?_
  refine (Cert.RowBlock.IsRows.dot_plain_sum dot_S512x4096_S4096x512_S512x512_1_0_0_1_n_n ⟨rfl, rfl, rfl, rfl, rfl, rfl⟩ _ _ p kk).trans ?_
  exact Finset.sum_congr rfl fun h _ =>
    congrArg₂ (· * ·) (normed_apply v0 v20 v24 p h) (congrFun (shapeCast_self v29 _) (ix2 h kk))

/-- The cubic correction added to the pre-activation. -/
private theorem pay6_apply (v0 : Vec Ideal S512x4096 .f32) (v20 v24 : Vec Ideal S1x4096 .f32) (v29 : Vec Ideal S4096x512 .bf16)
    (v32 : Vec Ideal S1x512 .f32) (p kk : Fin 512) :
    k0_pay6 (F := Ideal) v0 v20 v24 v29 v32 (ix2 p kk)
      = k0_pay5 (F := Ideal) v0 v20 v24 v29 v32 (ix2 p kk)
        + Row.wCube * (k0_pay5 (F := Ideal) v0 v20 v24 v29 v32 (ix2 p kk)
          * (k0_pay5 (F := Ideal) v0 v20 v24 v29 v32 (ix2 p kk) * k0_pay5 (F := Ideal) v0 v20 v24 v29 v32 (ix2 p kk))) :=
  rfl

/-! ## The second product: one accumulation step -/

/-- The accumulation payload for arbitrary hidden values: what the output block held plus the activations against the
    second weight block. -/
private theorem pay2_apply (v35 v40 : FVec Ideal S512x512 .f32) (v50 : Vec Ideal S512x4096 .bf16) (v56 : Vec Ideal S512x4096 .f32)
    (p : Fin 512) (q : Fin 4096) :
    k0_pay2 (F := Ideal) v35 v40 v50 v56 (ix2 p q)
      = v56 (ix2 p q) + ∑ kk : Fin 512,
          (v35 (ix2 p kk) * (Row.wHalf * (Row.wOne + Ideal.tanh (Row.wScale * v40 (ix2 p kk))))) * v50 (ix2 kk q) := by
  unfold k0_pay2
  refine congrArg₂ (· + ·) (congrFun (shapeCast_self v56 _) (ix2 p q)) ?_
  refine (Ideal.matmul_constant_zero_apply _ none _ _ (ix2 p q)).trans ?_
  refine (Cert.RowBlock.IsRows.dot_plain_sum dot_S512x512_S512x4096_S512x4096_1_0_0_1_n_n ⟨rfl, rfl, rfl, rfl, rfl, rfl⟩ _ _ p q).trans ?_
  exact Finset.sum_congr rfl fun kk _ => congrArg₂ (· * ·) rfl (congrFun (shapeCast_self v50 _) (ix2 kk q))

/-- One accumulation step: over what the output block held (`v56`), row `p` gains, at output column `q`, the sum
    over the 512 hidden columns of this block of (the activation of row `p` at that hidden column) times (the second
    weight block's entry). The activation is the one-row layer's, on row `p` of the loaded row block `v0`, with gain
    `v20`, shift `v24`, the first weight block's column and the bias block's entry. -/
theorem step_apply (v0 : Vec Ideal S512x4096 .f32) (v20 v24 : Vec Ideal S1x4096 .f32) (v29 : Vec Ideal S4096x512 .bf16)
    (v32 : Vec Ideal S1x512 .f32) (v50 : Vec Ideal S512x4096 .bf16) (v56 : Vec Ideal S512x4096 .f32)
    (p : Fin 512) (q : Fin 4096) :
    k0_pay2 (F := Ideal) (k0_pay5 v0 v20 v24 v29 v32) (k0_pay6 v0 v20 v24 v29 v32) v50 v56 (ix2 p q)
      = v56 (ix2 p q) + ∑ kk : Fin 512,
          Row.act (Arr.rowOf v0 p) (Arr.row0 v20) (Arr.row0 v24) (Arr.colOf v29 kk) (v32 (ix2 (0 : Fin 1) kk)) * v50 (ix2 kk q) := by
  refine (pay2_apply _ _ v50 v56 p q).trans ?_
  refine congrArg (v56 (ix2 p q) + ·) (Finset.sum_congr rfl fun kk _ => congrArg (· * v50 (ix2 kk q)) ?_)
  rw [pay6_apply, pay5_apply]
  rfl

/-- The closing step: what the output block held, plus the row block, plus the output bias. -/
theorem pay3_apply (v1 : FVec Ideal S512x4096 .f32) (v63 : Vec Ideal S512x4096 .f32) (v66 : Vec Ideal S1x4096 .f32)
    (p : Fin 512) (q : Fin 4096) :
    k0_pay3 (F := Ideal) v1 v63 v66 (ix2 p q) = (v63 (ix2 p q) + v1 (ix2 p q)) + v66 (ix2 (0 : Fin 1) q) := by
  unfold k0_pay3
  exact congrArg₂ (· + ·) (congrArg₂ (· + ·) (congrFun (shapeCast_self v63 _) (ix2 p q)) rfl) (rowRep_apply v66 _ _ p q)

end Cert.Hand.Pay

end
-- ==== Proof.BlockReads.lean ====
/-
  What the kernel's windows hold at a grid point, in terms of the argument arrays.

  Grid point t works on row block t / 32 (rows 512 (t / 32) .. + 511 of the 8192-row view of input + residual + bias,
  i.e. rows (b, s) of the [4, 2048, 4096] arrays with 2048 b + s the flat row) and on hidden block t % 32 (hidden
  columns 512 (t % 32) .. + 511 of the two weight matrices and of the first bias). The gain, the shift and the output
  bias are read whole at every point. The weights' change of float format is the identity on extended reals.
-/
import proofs.«166051_j77189152243985_1_alg».proof.Proof.Gen.KernelIdeal.Frame
import proofs.«166051_j77189152243985_1_alg».proof.Proof.Arrays
import Idealize.ShloMosaic.Lib.ValueIdx
import Idealize.ShloMosaic.Lib.ValueLayout
import Idealize.ShloMosaic.Lib.Pipeline.Value
import Idealize.ShloMosaic.Lib.StableHlo.Run

noncomputable section

namespace Cert.Hand.Blk

open Idealize.ShloMosaic Idealize.ShloMosaic.TcCoe Idealize.ShloMosaic.ValueIdx Idealize.SL.Sem
open Cert.KernelIdeal Cert.KernelIdeal.Gen Cert.Hand

variable (m : (ℓ : Loc nD τ sig) → Buf (Elt Ideal) ℓ)

/-- The windows' blocks at grid point `t`, at their literal types. -/
abbrev b0 (c : Dev nD) (t : Fin cfg0.N) : Vec Ideal S512x4096 .f32 := iblk m c 0 t
abbrev b1 (c : Dev nD) (t : Fin cfg0.N) : Vec Ideal S1x4096 .f32 := iblk m c 1 t
abbrev b2 (c : Dev nD) (t : Fin cfg0.N) : Vec Ideal S1x4096 .f32 := iblk m c 2 t
abbrev b3 (c : Dev nD) (t : Fin cfg0.N) : Vec Ideal S4096x512 .bf16 := iblk m c 3 t
abbrev b4 (c : Dev nD) (t : Fin cfg0.N) : Vec Ideal S1x512 .f32 := iblk m c 4 t
abbrev b5 (c : Dev nD) (t : Fin cfg0.N) : Vec Ideal S512x4096 .bf16 := iblk m c 5 t
abbrev b6 (c : Dev nD) (t : Fin cfg0.N) : Vec Ideal S1x4096 .f32 := iblk m c 6 t

/-- Row `p` of the row block is row (b, s) of input + residual + bias, 2048 b + s = 512 (t / 32) + p. -/
theorem b0_apply (c : Dev nD) (t : Fin cfg0.N) (p : Fin 512) (h : Fin 4096) :
    b0 m c t (ix2 p h) = Arr.resRow (m ((c : Thread nD τ).loc main_arg0)) (m ((c : Thread nD τ).loc main_arg1)) (m ((c : Thread nD τ).loc main_arg3)) (Arr.rowB t.val p) (Arr.rowS t.val p) h := by
  have e : V m c main_v4 = shapeCast S8192x4096
      (addf (F := Ideal) (s := S4x2048x4096) (φ := .f32)
        (addf (F := Ideal) (s := S4x2048x4096) (φ := .f32) (m ((c : Thread nD τ).loc main_arg0)) (m ((c : Thread nD τ).loc main_arg1)))
        (broadcastInDim S4x2048x4096 ![0, 1, 2] bcast_S1x1x4096_S4x2048x4096_0_1_2
          (broadcastInDim S1x1x4096 ![2] bcast_S4096_S1x1x4096_2 (m ((c : Thread nD τ).loc main_arg3)))))
      shapeCasts_S4x2048x4096_S8192x4096 := by
    show StableHlo.after hostOps0 (fun b => m (c, b)) (Proc.devRef .tc main_v4) = _
    after_results
    rfl
  have hi : ∀ t : Fin cfg0.N, win0_0.index t 0 = t.val / 32 ∧ win0_0.index t 1 = 0 :=
    (by decide +kernel : ∀ t : Fin grid0.N, win0_0.index t 0 = t.val / 32 ∧ win0_0.index t 1 = 0)
  show ((cfg0.win 0).blk t).view.read (Elt Ideal) (V m c main_v4) (ix2 p h) = _
  rw [View.read_apply]
  show V m c main_v4 _ = _
  rw [e]
  have ht : t.val < 512 := by have h1 := t.isLt; have h2 : cfg0.N = 512 := N_0; omega
  have hp : p.val < 512 := p.isLt
  -- the flat row 512 (t / 32) + p of the 8192-row view is row (b, s) with 2048 b + s the same number
  refine (shapeCast_apply _ shapeCasts_S4x2048x4096_S8192x4096 _ (ix3 (Arr.rowB t.val p) (Arr.rowS t.val p) h) ?_).trans ?_
  · rw [Shape.rowMajor_val_three, Shape.rowMajor_val_two]
    show ((512 * (t.val / 32) + p.val) / 2048 % 4 * 2048 + (512 * (t.val / 32) + p.val) % 2048) * 4096 + h.val
        = (win0_0.index t 0 * 512 + 1 * p.val) * 4096 + (win0_0.index t 1 * 4096 + 1 * h.val)
    rw [(hi t).1, (hi t).2]
    omega
  · -- the sum of the three arrays there; the bias is broadcast along the rows
    have hb : broadcastInDim S4x2048x4096 ![0, 1, 2] bcast_S1x1x4096_S4x2048x4096_0_1_2
          (broadcastInDim S1x1x4096 ![2] bcast_S4096_S1x1x4096_2 (m ((c : Thread nD τ).loc main_arg3)))
          (ix3 (Arr.rowB t.val p) (Arr.rowS t.val p) h) = m ((c : Thread nD τ).loc main_arg3) (ix1 h) := by
      refine (broadcastInDim_apply _ bcast_S1x1x4096_S4x2048x4096_0_1_2 _ _ (ix3 (0 : Fin 1) (0 : Fin 1) h) (fun a => match a with
        | ⟨0, _⟩ => by show 0 = if (1 : Nat) = 1 then 0 else _; rw [if_pos rfl]
        | ⟨1, _⟩ => by show 0 = if (1 : Nat) = 1 then 0 else _; rw [if_pos rfl]
        | ⟨2, _⟩ => by show h.val = if (4096 : Nat) = 1 then 0 else h.val; rw [if_neg (by decide)])).trans ?_
      exact broadcastInDim_apply _ bcast_S4096_S1x1x4096_2 _ _ (ix1 h) (fun a => match a with
        | ⟨0, _⟩ => by show h.val = if (4096 : Nat) = 1 then 0 else h.val; rw [if_neg (by decide)])
    refine (addf_apply _ _ _).trans ?_
    rw [hb]
    rfl

/-- The gain. -/
theorem b1_apply (c : Dev nD) (t : Fin cfg0.N) (h : Fin 4096) :
    b1 m c t (ix2 (0 : Fin 1) h) = (m ((c : Thread nD τ).loc main_arg4)) (ix1 h) := by
  have e : V m c main_v5 = shapeCast S1x4096 (m ((c : Thread nD τ).loc main_arg4)) shapeCasts_S4096_S1x4096 := by
    show StableHlo.after hostOps0 (fun b => m (c, b)) (Proc.devRef .tc main_v5) = _
    after_results
    rfl
  have hi : ∀ t : Fin cfg0.N, win0_1.index t 0 = 0 ∧ win0_1.index t 1 = 0 :=
    (by decide +kernel : ∀ t : Fin grid0.N, win0_1.index t 0 = 0 ∧ win0_1.index t 1 = 0)
  show ((cfg0.win 1).blk t).view.read (Elt Ideal) (V m c main_v5) (ix2 (0 : Fin 1) h) = _
  rw [View.read_apply]
  show V m c main_v5 _ = _
  rw [e]
  refine Eq.trans (congrArg _ ?_) (shapeCast_a_1a_apply _ shapeCasts_S4096_S1x4096 (0 : Fin 1) h)
  funext a
  apply Fin.ext
  match a with
  | ⟨0, _⟩ => show win0_1.index t 0 * 1 + 1 * 0 = 0; rw [(hi t).1]
  | ⟨1, _⟩ => show win0_1.index t 1 * 4096 + 1 * h.val = h.val; rw [(hi t).2]; omega

/-- The shift. -/
theorem b2_apply (c : Dev nD) (t : Fin cfg0.N) (h : Fin 4096) :
    b2 m c t (ix2 (0 : Fin 1) h) = (m ((c : Thread nD τ).loc main_arg5)) (ix1 h) := by
  have e : V m c main_v6 = shapeCast S1x4096 (m ((c : Thread nD τ).loc main_arg5)) shapeCasts_S4096_S1x4096 := by
    show StableHlo.after hostOps0 (fun b => m (c, b)) (Proc.devRef .tc main_v6) = _
    after_results
    rfl
  have hi : ∀ t : Fin cfg0.N, win0_2.index t 0 = 0 ∧ win0_2.index t 1 = 0 :=
    (by decide +kernel : ∀ t : Fin grid0.N, win0_2.index t 0 = 0 ∧ win0_2.index t 1 = 0)
  show ((cfg0.win 2).blk t).view.read (Elt Ideal) (V m c main_v6) (ix2 (0 : Fin 1) h) = _
  rw [View.read_apply]
  show V m c main_v6 _ = _
  rw [e]
  refine Eq.trans (congrArg _ ?_) (shapeCast_a_1a_apply _ shapeCasts_S4096_S1x4096 (0 : Fin 1) h)
  funext a
  apply Fin.ext
  match a with
  | ⟨0, _⟩ => show win0_2.index t 0 * 1 + 1 * 0 = 0; rw [(hi t).1]
  | ⟨1, _⟩ => show win0_2.index t 1 * 4096 + 1 * h.val = h.val; rw [(hi t).2]; omega

/-- The first weight matrix's hidden block. -/
theorem b3_apply (c : Dev nD) (t : Fin cfg0.N) (h : Fin 4096) (kk : Fin 512) :
    b3 m c t (ix2 h kk) = (m ((c : Thread nD τ).loc main_arg6)) (ix2 h (Row.col (t.val % 32) kk)) := by
  have e : V m c main_v9 = truncf (F := Ideal) (s := S4096x16384) (φ := .f32) .bf16 (m ((c : Thread nD τ).loc main_arg6)) bitsLt_bf16_f32 := by
    show StableHlo.after hostOps0 (fun b => m (c, b)) (Proc.devRef .tc main_v9) = _
    after_results
  have hi : ∀ t : Fin cfg0.N, win0_3.index t 0 = 0 ∧ win0_3.index t 1 = t.val % 32 :=
    (by decide +kernel : ∀ t : Fin grid0.N, win0_3.index t 0 = 0 ∧ win0_3.index t 1 = t.val % 32)
  show ((cfg0.win 3).blk t).view.read (Elt Ideal) (V m c main_v9) (ix2 h kk) = _
  rw [View.read_apply]
  show V m c main_v9 _ = _
  rw [e]
  refine Eq.trans (truncf_apply _ bitsLt_bf16_f32 _) (congrArg (m ((c : Thread nD τ).loc main_arg6)) ?_)
  funext a
  apply Fin.ext
  match a with
  | ⟨0, _⟩ => show win0_3.index t 0 * 4096 + 1 * h.val = h.val; rw [(hi t).1]; omega
  | ⟨1, _⟩ =>
    show win0_3.index t 1 * 512 + 1 * kk.val = (Row.col (t.val % 32) kk).val
    rw [(hi t).2, Row.col_val _ (Nat.mod_lt _ (by norm_num)) kk]; omega

/-- The first bias's hidden block. -/
theorem b4_apply (c : Dev nD) (t : Fin cfg0.N) (kk : Fin 512) :
    b4 m c t (ix2 (0 : Fin 1) kk) = (m ((c : Thread nD τ).loc main_arg7)) (ix1 (Row.col (t.val % 32) kk)) := by
  have e : V m c main_v7 = shapeCast S1x16384 (m ((c : Thread nD τ).loc main_arg7)) shapeCasts_S16384_S1x16384 := by
    show StableHlo.after hostOps0 (fun b => m (c, b)) (Proc.devRef .tc main_v7) = _
    after_results
    rfl
  have hi : ∀ t : Fin cfg0.N, win0_4.index t 0 = 0 ∧ win0_4.index t 1 = t.val % 32 :=
    (by decide +kernel : ∀ t : Fin grid0.N, win0_4.index t 0 = 0 ∧ win0_4.index t 1 = t.val % 32)
  show ((cfg0.win 4).blk t).view.read (Elt Ideal) (V m c main_v7) (ix2 (0 : Fin 1) kk) = _
  rw [View.read_apply]
  show V m c main_v7 _ = _
  rw [e]
  refine Eq.trans (congrArg _ ?_) (shapeCast_a_1a_apply _ shapeCasts_S16384_S1x16384 (0 : Fin 1) (Row.col (t.val % 32) kk))
  funext a
  apply Fin.ext
  match a with
  | ⟨0, _⟩ => show win0_4.index t 0 * 1 + 1 * 0 = 0; rw [(hi t).1]
  | ⟨1, _⟩ =>
    show win0_4.index t 1 * 512 + 1 * kk.val = (Row.col (t.val % 32) kk).val
    rw [(hi t).2, Row.col_val _ (Nat.mod_lt _ (by norm_num)) kk]; omega

/-- The second weight matrix's hidden block. -/
theorem b5_apply (c : Dev nD) (t : Fin cfg0.N) (kk : Fin 512) (q : Fin 4096) :
    b5 m c t (ix2 kk q) = (m ((c : Thread nD τ).loc main_arg8)) (ix2 (Row.col (t.val % 32) kk) q) := by
  have e : V m c main_v10 = truncf (F := Ideal) (s := S16384x4096) (φ := .f32) .bf16 (m ((c : Thread nD τ).loc main_arg8)) bitsLt_bf16_f32 := by
    show StableHlo.after hostOps0 (fun b => m (c, b)) (Proc.devRef .tc main_v10) = _
    after_results
  have hi : ∀ t : Fin cfg0.N, win0_5.index t 0 = t.val % 32 ∧ win0_5.index t 1 = 0 :=
    (by decide +kernel : ∀ t : Fin grid0.N, win0_5.index t 0 = t.val % 32 ∧ win0_5.index t 1 = 0)
  show ((cfg0.win 5).blk t).view.read (Elt Ideal) (V m c main_v10) (ix2 kk q) = _
  rw [View.read_apply]
  show V m c main_v10 _ = _
  rw [e]
  refine Eq.trans (truncf_apply _ bitsLt_bf16_f32 _) (congrArg (m ((c : Thread nD τ).loc main_arg8)) ?_)
  funext a
  apply Fin.ext
  match a with
  | ⟨0, _⟩ =>
    show win0_5.index t 0 * 512 + 1 * kk.val = (Row.col (t.val % 32) kk).val
    rw [(hi t).1, Row.col_val _ (Nat.mod_lt _ (by norm_num)) kk]; omega
  | ⟨1, _⟩ => show win0_5.index t 1 * 4096 + 1 * q.val = q.val; rw [(hi t).2]; omega

/-- The output bias. -/
theorem b6_apply (c : Dev nD) (t : Fin cfg0.N) (q : Fin 4096) :
    b6 m c t (ix2 (0 : Fin 1) q) = (m ((c : Thread nD τ).loc main_arg9)) (ix1 q) := by
  have e : V m c main_v8 = shapeCast S1x4096 (m ((c : Thread nD τ).loc main_arg9)) shapeCasts_S4096_S1x4096 := by
    show StableHlo.after hostOps0 (fun b => m (c, b)) (Proc.devRef .tc main_v8) = _
    after_results
    rfl
  have hi : ∀ t : Fin cfg0.N, win0_6.index t 0 = 0 ∧ win0_6.index t 1 = 0 :=
    (by decide +kernel : ∀ t : Fin grid0.N, win0_6.index t 0 = 0 ∧ win0_6.index t 1 = 0)
  show ((cfg0.win 6).blk t).view.read (Elt Ideal) (V m c main_v8) (ix2 (0 : Fin 1) q) = _
  rw [View.read_apply]
  show V m c main_v8 _ = _
  rw [e]
  refine Eq.trans (congrArg _ ?_) (shapeCast_a_1a_apply _ shapeCasts_S4096_S1x4096 (0 : Fin 1) q)
  funext a
  apply Fin.ext
  match a with
  | ⟨0, _⟩ => show win0_6.index t 0 * 1 + 1 * 0 = 0; rw [(hi t).1]
  | ⟨1, _⟩ => show win0_6.index t 1 * 4096 + 1 * q.val = q.val; rw [(hi t).2]; omega

end Cert.Hand.Blk

end
-- ==== Proof.Accum.lean ====
/-
  The output block across the hidden blocks, and the array the region leaves.

  Within one row block the grid visits the 32 hidden blocks in order. The output block's buffer is cleared at the first,
  every hidden block adds its share of the second product, and the last one then adds the row block and the output
  bias. So before the last hidden block the buffer holds, in row p and column q, the sum of the shares of the hidden
  blocks visited so far, and after it the whole second product plus the row plus the bias: the one-row layer of the
  row. The block is written back to the result array after the last hidden block only; these 16 write-backs tile the
  8192 x 4096 array, which therefore ends holding the layer row by row; read as [4, 2048, 4096] it is the layer.
-/
import proofs.«166051_j77189152243985_1_alg».proof.Proof.Pieces
import proofs.«166051_j77189152243985_1_alg».proof.Proof.PayloadAt
import proofs.«166051_j77189152243985_1_alg».proof.Proof.BlockReads
import Idealize.ShloMosaic.Lib.Pipeline.Value
import Idealize.ShloMosaic.Lib.StableHlo.Run
import Idealize.ShloMosaic.Lib.Tactic

set_option maxRecDepth 16384

noncomputable section

open scoped BigOperators

namespace Cert.Hand.Acc

open Idealize.ShloMosaic Idealize.ShloMosaic.TcCoe Idealize.ShloMosaic.ValueIdx Idealize.SL.Sem
open Cert.KernelIdeal Cert.KernelIdeal.Gen Cert.Hand
open Idealize.ShloMosaic.Pipeline (Dat)

variable (m : (ℓ : Loc nD τ sig) → Buf (Elt Ideal) ℓ) (ρ : Dev nD → PrngReg)

/-! ## Rows and shares -/

/-- Row `p` of the row block grid point `n` works on. -/
def rowAt (c : Dev nD) (n : ℕ) (p : Fin 512) : Fin 4096 → EReal :=
  Arr.resRow (m ((c : Thread nD τ).loc main_arg0)) (m ((c : Thread nD τ).loc main_arg1)) (m ((c : Thread nD τ).loc main_arg3)) (Arr.rowB n p) (Arr.rowS n p)

/-- Hidden block `j`'s share of the second product, for that row, at output column `q`. -/
def share (c : Dev nD) (n : ℕ) (p : Fin 512) (q : Fin 4096) (j : ℕ) : EReal :=
  Row.part (rowAt m c n p) (Arr.vecOf (m ((c : Thread nD τ).loc main_arg4))) (Arr.vecOf (m ((c : Thread nD τ).loc main_arg5))) (Arr.matOf (m ((c : Thread nD τ).loc main_arg6))) (Arr.vecOf (m ((c : Thread nD τ).loc main_arg7))) (Arr.matOf (m ((c : Thread nD τ).loc main_arg8))) q j

/-- Two consecutive grid points inside one run of 32 work on the same row block. -/
theorem rowAt_succ (c : Dev nD) (n : ℕ) (h : (n + 1) % 32 ≠ 0) (p : Fin 512) : rowAt m c (n + 1) p = rowAt m c n p := by
  have e : (n + 1) / 32 = n / 32 := by omega
  have eB : Arr.rowB (n + 1) p = Arr.rowB n p :=
    Fin.ext (by show (512 * ((n + 1) / 32) + p.val) / 2048 % 4 = (512 * (n / 32) + p.val) / 2048 % 4; rw [e])
  have eS : Arr.rowS (n + 1) p = Arr.rowS n p :=
    Fin.ext (by show (512 * ((n + 1) / 32) + p.val) % 2048 = (512 * (n / 32) + p.val) % 2048; rw [e])
  unfold rowAt
  rw [eB, eS]

theorem share_succ (c : Dev nD) (n : ℕ) (h : (n + 1) % 32 ≠ 0) (p : Fin 512) (q : Fin 4096) :
    share m c (n + 1) p q = share m c n p q := by
  unfold share
  rw [rowAt_succ m c n h p]

/-- The sum the body forms over the 512 hidden columns of its block is the block's share. -/
theorem blockSum_eq (c : Dev nD) (t : Fin cfg0.N) (p : Fin 512) (q : Fin 4096) :
    ∑ kk : Fin 512, Row.act (Arr.rowOf (Blk.b0 m c t) p) (Arr.row0 (Blk.b1 m c t)) (Arr.row0 (Blk.b2 m c t))
        (Arr.colOf (Blk.b3 m c t) kk) (Blk.b4 m c t (ix2 (0 : Fin 1) kk)) * Blk.b5 m c t (ix2 kk q)
      = share m c t.val p q (t.val % 32) := by
  have e0 : Arr.rowOf (Blk.b0 m c t) p = rowAt m c t.val p := funext fun h => Blk.b0_apply m c t p h
  have e1 : Arr.row0 (Blk.b1 m c t) = Arr.vecOf (m ((c : Thread nD τ).loc main_arg4)) := funext fun h => Blk.b1_apply m c t h
  have e2 : Arr.row0 (Blk.b2 m c t) = Arr.vecOf (m ((c : Thread nD τ).loc main_arg5)) := funext fun h => Blk.b2_apply m c t h
  unfold share Row.part
  refine Finset.sum_congr rfl fun kk _ => ?_
  have e3 : Arr.colOf (Blk.b3 m c t) kk = fun h => Arr.matOf (m ((c : Thread nD τ).loc main_arg6)) h (Row.col (t.val % 32) kk) :=
    funext fun h => Blk.b3_apply m c t h kk
  rw [e0, e1, e2, e3, Blk.b4_apply m c t kk, Blk.b5_apply m c t kk q]

/-- One accumulation step at grid point `t`, over any previous contents `xo`. -/
theorem step_at (c : Dev nD) (t : Fin cfg0.N) (xo : Vec Ideal S512x4096 .f32) (p : Fin 512) (q : Fin 4096) :
    k0_pay2 (F := Ideal) (k0_pay5 (Blk.b0 m c t) (Blk.b1 m c t) (Blk.b2 m c t) (Blk.b3 m c t) (Blk.b4 m c t)) (k0_pay6 (Blk.b0 m c t) (Blk.b1 m c t) (Blk.b2 m c t) (Blk.b3 m c t) (Blk.b4 m c t)) (Blk.b5 m c t) xo (ix2 p q)
      = xo (ix2 p q) + share m c t.val p q (t.val % 32) :=
  (Pay.step_apply (Blk.b0 m c t) (Blk.b1 m c t) (Blk.b2 m c t) (Blk.b3 m c t) (Blk.b4 m c t) (Blk.b5 m c t) xo p q).trans
    (congrArg (fun z => xo (ix2 p q) + z) (blockSum_eq m c t p q))

/-! ## The three cases at a grid point -/

/-- At the first hidden block the buffer ends at that block's share. -/
theorem acc_A (c : Dev nD) (t : Fin cfg0.N) (h0 : t.val % 32 = 0) (p : Fin 512) (q : Fin 4096) :
    outsAt0 m c t.val t.isLt (ix2 p q) = ∑ j ∈ Finset.range (t.val % 32 + 1), share m c t.val p q j := by
  have h1 : ¬t.val % 32 = 31 := by omega
  have e : outsAt0 m c t.val t.isLt
      = k0_pay2 (F := Ideal) (k0_pay5 (Blk.b0 m c t) (Blk.b1 m c t) (Blk.b2 m c t) (Blk.b3 m c t) (Blk.b4 m c t)) (k0_pay6 (Blk.b0 m c t) (Blk.b1 m c t) (Blk.b2 m c t) (Blk.b3 m c t) (Blk.b4 m c t)) (Blk.b5 m c t) (k0_pay1 (F := Ideal)) :=
    (outsAt0_A m c t h0 h1).trans
      (Piece.out_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (fun h => h1 ((hcond0_1 t).mp h)) (iblk m c 0 t) (iblk m c 1 t) (iblk m c 2 t) (iblk m c 3 t) (iblk m c 4 t) (iblk m c 5 t) (iblk m c 6 t))
  rw [e, step_at m c t _ p q, Pay.pay1_apply p q, h0, zero_add, Finset.sum_range_one]

/-- At a middle hidden block the buffer gains that block's share. -/
theorem acc_B (c : Dev nD) (t : Fin cfg0.N) (h0 : ¬t.val % 32 = 0) (h1 : ¬t.val % 32 = 31) (p : Fin 512) (q : Fin 4096) :
    outsAt0 m c t.val t.isLt (ix2 p q)
      = outsAt0 m c (t.val - 1) (Nat.lt_of_le_of_lt (Nat.sub_le _ _) t.isLt) (ix2 p q) + share m c t.val p q (t.val % 32) := by
  have e : outsAt0 m c t.val t.isLt
      = k0_pay2 (F := Ideal) (k0_pay5 (Blk.b0 m c t) (Blk.b1 m c t) (Blk.b2 m c t) (Blk.b3 m c t) (Blk.b4 m c t)) (k0_pay6 (Blk.b0 m c t) (Blk.b1 m c t) (Blk.b2 m c t) (Blk.b3 m c t) (Blk.b4 m c t)) (Blk.b5 m c t)
          (outsAt0 m c (t.val - 1) (Nat.lt_of_le_of_lt (Nat.sub_le _ _) t.isLt)) :=
    (outsAt0_B m c t h0 h1).trans
      (Piece.out_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t)
        (outsAt0 m c (t.val - 1) (Nat.lt_of_le_of_lt (Nat.sub_le _ _) t.isLt)))
  rw [e, step_at m c t _ p q]

/-- At the last hidden block the buffer gains that block's share, then the row and the output bias. -/
theorem acc_C (c : Dev nD) (t : Fin cfg0.N) (h0 : ¬t.val % 32 = 0) (h1 : t.val % 32 = 31) (p : Fin 512) (q : Fin 4096) :
    outsAt0 m c t.val t.isLt (ix2 p q)
      = ((outsAt0 m c (t.val - 1) (Nat.lt_of_le_of_lt (Nat.sub_le _ _) t.isLt) (ix2 p q) + share m c t.val p q (t.val % 32))
          + rowAt m c t.val p q) + (m ((c : Thread nD τ).loc main_arg9)) (ix1 q) := by
  have e : outsAt0 m c t.val t.isLt
      = k0_pay3 (F := Ideal) (k0_pay4 (Blk.b0 m c t))
          (k0_pay2 (F := Ideal) (k0_pay5 (Blk.b0 m c t) (Blk.b1 m c t) (Blk.b2 m c t) (Blk.b3 m c t) (Blk.b4 m c t)) (k0_pay6 (Blk.b0 m c t) (Blk.b1 m c t) (Blk.b2 m c t) (Blk.b3 m c t) (Blk.b4 m c t)) (Blk.b5 m c t)
            (outsAt0 m c (t.val - 1) (Nat.lt_of_le_of_lt (Nat.sub_le _ _) t.isLt))) (Blk.b6 m c t) :=
    (outsAt0_C m c t h0 h1).trans
      (Piece.out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) ((hcond0_1 t).mpr h1) (iblk m c 0 t) (iblk m c 1 t) (iblk m c 2 t) (iblk m c 3 t) (iblk m c 4 t) (iblk m c 5 t) (iblk m c 6 t)
        (outsAt0 m c (t.val - 1) (Nat.lt_of_le_of_lt (Nat.sub_le _ _) t.isLt)))
  rw [e, Pay.pay3_apply _ _ _ p q, step_at m c t _ p q, Pay.pay4_apply _ p q, Blk.b0_apply m c t p q, Blk.b6_apply m c t q]
  rfl

/-! ## The running total, and the row after the last hidden block -/

/-- Before the last hidden block of a run the buffer holds the sum of the shares of the hidden blocks visited so far. -/
theorem acc_lt (c : Dev nD) : ∀ (n : ℕ) (hn : n < cfg0.N), n % 32 ≠ 31 → ∀ (p : Fin 512) (q : Fin 4096),
    outsAt0 m c n hn (ix2 p q) = ∑ j ∈ Finset.range (n % 32 + 1), share m c n p q j := by
  intro n
  induction n with
  | zero => intro hn _ p q; exact acc_A m c ⟨0, hn⟩ rfl p q
  | succ n ih =>
    intro hn h31 p q
    by_cases h0 : (n + 1) % 32 = 0
    · exact acc_A m c ⟨n + 1, hn⟩ h0 p q
    · have hn' : n < cfg0.N := Nat.lt_of_succ_lt hn
      have hB := acc_B m c ⟨n + 1, hn⟩ h0 h31 p q
      have ih' := ih hn' (by omega) p q
      have hs : (n + 1) % 32 = n % 32 + 1 := by omega
      refine hB.trans ?_
      show outsAt0 m c n hn' (ix2 p q) + share m c (n + 1) p q ((n + 1) % 32) = _
      rw [ih', share_succ m c n h0 p q, hs, Finset.sum_range_succ _ (n % 32 + 1)]

/-- After the last hidden block of a run the buffer holds the one-row layer of each of its rows. -/
theorem acc_last (c : Dev nD) (t : Fin cfg0.N) (h1 : t.val % 32 = 31) (p : Fin 512) (q : Fin 4096) :
    outsAt0 m c t.val t.isLt (ix2 p q)
      = Row.out (rowAt m c t.val p) (Arr.vecOf (m ((c : Thread nD τ).loc main_arg4))) (Arr.vecOf (m ((c : Thread nD τ).loc main_arg5))) (Arr.matOf (m ((c : Thread nD τ).loc main_arg6))) (Arr.vecOf (m ((c : Thread nD τ).loc main_arg7))) (Arr.matOf (m ((c : Thread nD τ).loc main_arg8))) (Arr.vecOf (m ((c : Thread nD τ).loc main_arg9))) q := by
  obtain ⟨n, hn⟩ := t
  cases n with
  | zero => exfalso; dsimp only at h1; omega
  | succ n =>
    have h0 : ¬(n + 1) % 32 = 0 := by dsimp only at h1; omega
    have hn' : n < cfg0.N := Nat.lt_of_succ_lt hn
    have hC := acc_C m c ⟨n + 1, hn⟩ h0 h1 p q
    have hprev := acc_lt m c n hn' (by dsimp only at h1; omega) p q
    have hs : n % 32 + 1 = 31 := by dsimp only at h1; omega
    have h31 : (n + 1) % 32 = 31 := h1
    refine hC.trans ?_
    show ((outsAt0 m c n hn' (ix2 p q) + share m c (n + 1) p q ((n + 1) % 32)) + rowAt m c (n + 1) p q) + _ = _
    rw [hprev, ← share_succ m c n h0 p q, hs, h31, ← Finset.sum_range_succ (share m c (n + 1) p q) 31]
    unfold Row.out
    rw [Row.proj_eq_parts]
    rfl

end Cert.Hand.Acc

end
-- ==== Proof.Result.lean ====
/-
  The array the region leaves, and the kernel's result.

  The output block of row block k is written back once, after the last hidden block (grid point 32 k + 31), to rows
  512 k .. 512 k + 511 of the 8192 x 4096 result array; by then it holds the one-row layer of each of its rows. The 16
  write-backs tile the array, so it ends holding, in flat row r, the layer of row (r / 2048, r % 2048). The program then
  reads that array as [4, 2048, 4096], entry (b, s, q) being entry (2048 b + s, q): the layer itself.
-/
import proofs.«166051_j77189152243985_1_alg».proof.Proof.Accum
import Idealize.ShloMosaic.Lib.Pipeline.Value
import Idealize.ShloMosaic.Lib.StableHlo.Run
import Idealize.ShloMosaic.Lib.Tactic

set_option maxRecDepth 16384

noncomputable section

open scoped BigOperators

namespace Cert.Hand.Res

open Idealize.ShloMosaic Idealize.ShloMosaic.TcCoe Idealize.ShloMosaic.ValueIdx Idealize.SL.Sem
open Cert.KernelIdeal Cert.KernelIdeal.Gen Cert.Hand
open Idealize.ShloMosaic.Pipeline (Dat)

variable (m : (ℓ : Loc nD τ sig) → Buf (Elt Ideal) ℓ) (ρ : Dev nD → PrngReg)

/-- The batch coordinate of flat row `r`. -/
def rowBof (r : Fin 8192) : Fin 4 := ⟨r.val / 2048, by have := r.isLt; omega⟩
/-- Its sequence coordinate. -/
def rowSof (r : Fin 8192) : Fin 2048 := ⟨r.val % 2048, Nat.mod_lt _ (by norm_num)⟩

/-- The 8192 x 4096 array the region leaves: flat row `r` holds the layer's row (r / 2048, r % 2048). -/
def result2 (c : Dev nD) : S8192x4096.Idx → EReal := fun j =>
  Arr.layer (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix3 (rowBof (j 0)) (rowSof (j 0)) (j 1))

/-- The output window's block of grid point `t` is row block t / 32, all columns (decided over the 512 points). -/
theorem idx7 : ∀ t : Fin cfg0.N, win0_7.index t (0 : Fin 2) = t.val / 32 ∧ win0_7.index t (1 : Fin 2) = 0 :=
  (by decide +kernel : ∀ t : Fin grid0.N, _)

/-- After the last hidden block, entry (p, q) of the output block is entry (512 (t / 32) + p, q) of that array. -/
theorem entry_eq (c : Dev nD) (t : Fin cfg0.N) (h31 : t.val % 32 = 31) (p : Fin 512) (q : Fin 4096) (r : Fin 8192)
    (hr : r.val = 512 * (t.val / 32) + p.val) :
    outsAt0 m c t.val t.isLt (ix2 p q) = result2 m c (ix2 r q) := by
  have hN : t.val < 512 := lt_of_lt_of_eq t.isLt (show cfg0.N = 512 from N_0)
  have hb : Arr.rowB t.val p = rowBof r :=
    Fin.ext (by show (512 * (t.val / 32) + p.val) / 2048 % 4 = r.val / 2048; have := p.isLt; omega)
  have hs : Arr.rowS t.val p = rowSof r :=
    Fin.ext (by show (512 * (t.val / 32) + p.val) % 2048 = r.val % 2048; rw [hr])
  rw [Acc.acc_last m c t h31 p q]
  unfold result2 Arr.layer Acc.rowAt
  rw [hb, hs]

/-- What a flushing grid point writes back is its block of that array. -/
theorem flushed_eq (c : Dev nD) (t : Fin cfg0.N) (hf : (cfg0.win 7).flush t = true) :
    (dats m 0 c).flushed 7 t = ((cfg0.win 7).blk t).view.read (Elt Ideal) (result2 m c) := by
  have h31 : t.val % 32 = 31 := (flush0_7 t).mp hf
  have hN : t.val < 512 := lt_of_lt_of_eq t.isLt (show cfg0.N = 512 from N_0)
  obtain ⟨i0, i1⟩ := idx7 t
  show (cfg0.win 7).cut (grid0.coords t) ((dats m 0 c).after 7 t) = _
  rw [after0_7]
  funext j
  show outsAt0 m c t.val t.isLt j = result2 m c (((cfg0.win 7).blk t).view.emb j)
  have hj0 : (j 0).val < 512 := (j 0).isLt
  refine (congrArg (outsAt0 m c t.val t.isLt) (eq_ix2 j)).trans ?_
  refine (entry_eq m c t h31 (j 0) (j 1) ⟨512 * (t.val / 32) + (j 0).val, by omega⟩ rfl).trans ?_
  refine congrArg (result2 m c) ?_
  funext a
  apply Fin.ext
  match a with
  | ⟨0, _⟩ =>
    show 512 * (t.val / 32) + (j 0).val = win0_7.index t (0 : Fin 2) * 512 + 1 * (j 0).val
    rw [i0]; omega
  | ⟨1, _⟩ =>
    show (j 1).val = win0_7.index t (1 : Fin 2) * 4096 + 1 * (j 1).val
    rw [i1]; omega

/-- An index of the array is in grid point `t`'s block iff each coordinate is in the block's range on its axis. -/
theorem mem_blk (t : Fin cfg0.N) (i : S8192x4096.Idx) :
    i ∈ ((cfg0.win 7).blk t).view.set ↔ ∀ a : Fin 2, win0_7.index t a * S512x4096.size a ≤ (i a).val
      ∧ (i a).val < win0_7.index t a * S512x4096.size a + S512x4096.size a := by
  show i ∈ ((View.whole main_v11).slice (win0_7.rect t)).set ↔ _
  rw [View.set_slice_whole, Rect.mem_set_unit]
  exact Iff.rfl

/-- Every index of the array is in the block of a flushing grid point: row r is in row block r / 512, flushed at
    grid point 32 (r / 512) + 31. -/
theorem cover (i : S8192x4096.Idx) :
    ∃ t : Fin cfg0.N, (cfg0.win 7).flush t = true ∧ i ∈ ((cfg0.win 7).blk t).view.set := by
  have hi0 : (i 0).val < 8192 := (i 0).isLt
  have hi1 : (i 1).val < 4096 := (i 1).isLt
  have hN : cfg0.N = 512 := N_0
  have ht : 32 * ((i 0).val / 512) + 31 < cfg0.N := by omega
  obtain ⟨e0, e1⟩ := idx7 ⟨32 * ((i 0).val / 512) + 31, ht⟩
  refine ⟨⟨32 * ((i 0).val / 512) + 31, ht⟩, (flush0_7 _).mpr (by show (32 * ((i 0).val / 512) + 31) % 32 = 31; omega), ?_⟩
  rw [mem_blk]
  intro a
  match a with
  | ⟨0, _⟩ =>
    show win0_7.index ⟨32 * ((i 0).val / 512) + 31, ht⟩ (0 : Fin 2) * 512 ≤ (i 0).val
      ∧ (i 0).val < win0_7.index ⟨32 * ((i 0).val / 512) + 31, ht⟩ (0 : Fin 2) * 512 + 512
    rw [e0]
    show (32 * ((i 0).val / 512) + 31) / 32 * 512 ≤ (i 0).val ∧ (i 0).val < (32 * ((i 0).val / 512) + 31) / 32 * 512 + 512
    omega
  | ⟨1, _⟩ =>
    show win0_7.index ⟨32 * ((i 0).val / 512) + 31, ht⟩ (1 : Fin 2) * 4096 ≤ (i 1).val
      ∧ (i 1).val < win0_7.index ⟨32 * ((i 0).val / 512) + 31, ht⟩ (1 : Fin 2) * 4096 + 4096
    rw [e1]; omega

/-- The result array after the region. -/
theorem final (c : Dev nD) : (dats m 0 c).arrAt 7 cfg0.N = result2 m c :=
  (dats m 0 c).arrAt_eq_of_cover 7 (result2 m c) (flushed_eq m c) cover

/-- Read as [4, 2048, 4096], the array is the layer. -/
theorem reshape_result (c : Dev nD) :
    shapeCast S4x2048x4096 (result2 m c) shapeCasts_S8192x4096_S4x2048x4096 = Arr.layer (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  funext i
  have h0 : (i 0).val < 4 := (i 0).isLt
  have h1 : (i 1).val < 2048 := (i 1).isLt
  refine (shapeCast_apply (result2 m c) shapeCasts_S8192x4096_S4x2048x4096 i
    (ix2 (⟨2048 * (i 0).val + (i 1).val, by omega⟩ : Fin 8192) (i 2)) ?_).trans ?_
  · rw [Shape.rowMajor_val_two, Shape.rowMajor_val_three]
    show (2048 * (i 0).val + (i 1).val) * 4096 + (i 2).val = ((i 0).val * 2048 + (i 1).val) * 4096 + (i 2).val
    omega
  · have eb : rowBof (⟨2048 * (i 0).val + (i 1).val, by omega⟩ : Fin 8192) = i 0 :=
      Fin.ext (by show (2048 * (i 0).val + (i 1).val) / 2048 = (i 0).val; omega)
    have es : rowSof (⟨2048 * (i 0).val + (i 1).val, by omega⟩ : Fin 8192) = i 1 :=
      Fin.ext (by show (2048 * (i 0).val + (i 1).val) % 2048 = (i 1).val; omega)
    show Arr.layer (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix3 (rowBof _) (rowSof _) (i 2)) = _
    rw [eb, es]
    exact congrArg (Arr.layer (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (eq_ix3 i).symm

/-- After the host's reshape the result buffer holds the layer. -/
theorem tail_eq (c : Dev nD) :
    Pipeline.afterTail₀ cfgs (dats m) 0 (V0 m) [hostOps1] c main_v12 = Arr.layer (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  unfold Pipeline.afterTail₀
  show StableHlo.after hostOps1 _ (Proc.devRef .tc main_v12) = _
  after_results
  refine Eq.trans ?_ (reshape_result m c)
  exact congrArg (fun x => shapeCast S4x2048x4096 x shapeCasts_S8192x4096_S4x2048x4096)
    ((Pipeline.withArrays_arr spec0 launch0.win.arr_inj c _ _ 7).trans (final m c))

/-- The kernel's run, read: the result buffer at the layer of the arguments, the arguments unchanged. -/
theorem run : θ_run defs (onTc (τ := τ) (main (F := Ideal))) ⟨m, fun _ => 0, ρ⟩ fun r => ∀ c : Dev nD,
      r.2.mem ((c.tc : Thread nD τ).loc main_v12) = Arr.layer (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨((h c).2 main_v12 (Pipeline.mem_restRefs_of main_v12 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

end Cert.Hand.Res

end
-- ==== Proof.lean ====
/-
  The certificate of the fused layer-norm / two-matmul block against its plain reference.

  Both programs compute, for each of the 8192 rows x of input + residual + bias, the row
    ((sum over the 16384 hidden columns k of gelu (norm x · W1[:, k] + b1 k) * W2[k, :]) + x) + ob,
  where norm x is the row normalised to zero mean and unit mean-square deviation (offset by eps under the reciprocal
  square root), with gain and shift, and gelu is the tanh form. The reference does this on the whole arrays. The
  kernel visits 16 row blocks of 512 rows and, inside each, 32 blocks of 512 hidden columns, keeping the second
  product in the output block: cleared at the first hidden block, one block's share added at each, the row and the
  output bias added after the last, and the block written back once. Over the extended reals the two agree entry by
  entry: a change of float format is the identity, the kernel's product into a zero accumulator is the reference's
  contraction, the two ways of cubing differ by commutativity of multiplication, and the total accumulated block by
  block is the whole sum by associativity and commutativity of addition. No entry needs to be finite.

  Modules: RowSpec (one row of the layer; the hidden columns in blocks), Arrays (the layer over the argument
  arrays), RefRow (the reference computes it), PayloadAt (the body's stored values entry by entry), Pieces (what each
  control case leaves in the output block), BlockReads (what the windows hold at a grid point), Accum (the running
  total and the row after the last hidden block), Result (the array the region leaves and the kernel's result).
-/
import proofs.«166051_j77189152243985_1_alg».proof.Defs
import proofs.«166051_j77189152243985_1_alg».proof.Proof.Gen.Kernel
import proofs.«166051_j77189152243985_1_alg».proof.Proof.Gen.Kernel.Skeleton
import proofs.«166051_j77189152243985_1_alg».proof.Proof.Gen.Kernel.Launch
import proofs.«166051_j77189152243985_1_alg».proof.Proof.Gen.Kernel.Points
import proofs.«166051_j77189152243985_1_alg».proof.Proof.Gen.Kernel.Frame
import proofs.«166051_j77189152243985_1_alg».proof.Proof.Gen.KernelIdeal
import proofs.«166051_j77189152243985_1_alg».proof.Proof.Gen.KernelIdeal.Skeleton
import proofs.«166051_j77189152243985_1_alg».proof.Proof.Gen.KernelIdeal.Launch
import proofs.«166051_j77189152243985_1_alg».proof.Proof.Gen.KernelIdeal.Points
import proofs.«166051_j77189152243985_1_alg».proof.Proof.Gen.KernelIdeal.Frame
import proofs.«166051_j77189152243985_1_alg».proof.Proof.Gen.ReferenceIdeal
import proofs.«166051_j77189152243985_1_alg».proof.Proof.Gen.ReferenceIdeal.Run
import proofs.«166051_j77189152243985_1_alg».proof.Proof.Gen.ReferenceIdeal.Read
import proofs.«166051_j77189152243985_1_alg».proof.Proof.Gen.Pre_finite_inputs
import proofs.«166051_j77189152243985_1_alg».proof.Proof.RefRow
import proofs.«166051_j77189152243985_1_alg».proof.Proof.Result
import Idealize.ShloMosaic.Adequacy
import Idealize.ShloMosaic.Init

noncomputable section

namespace Cert.Proof

open Idealize.ShloMosaic Idealize.SL.Sem Cert.Kernel

/-- The word-level kernel runs and keeps its arguments. -/
theorem frame_k : Cert.frame_Kernel (hKernel := Cert.Kernel.Gen.facts) (hPre_finite_inputs := Cert.Pre_finite_inputs.Gen.facts) :=
  fun m ρ _ => Cert.Kernel.Gen.frame m ρ

/-- So does the kernel read over the extended reals. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of host operations: it runs, and its arguments are never written. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments both programs end with the layer of the arguments in their result. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.Hand.Res.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v49_eq, Cert.Hand.Ref.ref_layer]
  obtain ⟨h0, h1, -, h3, h4, h5, h6, h7, h8, h9⟩ := hagree c
  rw [h0, h1, h3, h4, h5, h6, h7, h8, h9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
